-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096 : Shape := ⟨2, ![4, 4096]⟩
abbrev S50257x1024 : Shape := ⟨2, ![50257, 1024]⟩
abbrev S_ : Shape := ⟨0, ![]⟩

class Facts : Prop where
  bcast_S_S50257x1024 : S_.BroadcastsInDim S50257x1024 (![] : Fin 0 → Fin S50257x1024.rank)
  reducesTo_S50257x1024_S_d0_1 : S50257x1024.ReducesTo [0, 1] S_
  h_S_ : 0 < S_.numel
  bcast_S_S4x4096 : S_.BroadcastsInDim S4x4096 (![] : Fin 0 → Fin S4x4096.rank)
  reducesTo_S4x4096_S_d0_1 : S4x4096.ReducesTo [0, 1] S_

variable [Facts]

def fn {F : FTy → Type} [FloatOps F] (main_arg0 : IVec S4x4096 32) (main_arg1 : FVec F S50257x1024 .f32) : IVec S_ 1 :=
  let main_v0 : FVec F S50257x1024 .f32 := Host.absf main_arg1
  let main_cst : FVec F S_ .f32 := constant S_ .f32 0x7F800000#32
  let main_v1 : FVec F S50257x1024 .f32 := broadcastInDim S50257x1024 ![] bcast_S_S50257x1024 main_cst
  let main_v2 : IVec S50257x1024 1 := cmpf .olt main_v0 main_v1
  let main_c : IVec S_ 1 := constantI S_ 1 1#1
  let main_v3 : IVec S_ 1 := (fun x v => Host.reduce IntOp.andi x v reducesTo_S50257x1024_S_d0_1 h_S_) main_v2 main_c
  let main_c_0 : IVec S_ 32 := constantI S_ 32 0#32
  let main_v4 : IVec S4x4096 32 := broadcastInDim S4x4096 ![] bcast_S_S4x4096 main_c_0
  let main_v5 : IVec S4x4096 1 := cmpi .sge main_arg0 main_v4
  let main_c_1 : IVec S_ 1 := constantI S_ 1 1#1
  let main_v6 : IVec S_ 1 := (fun x v => Host.reduce IntOp.andi x v reducesTo_S4x4096_S_d0_1 h_S_) main_v5 main_c_1
  let main_v7 : IVec S_ 1 := andi main_v3 main_v6
  let main_c_2 : IVec S_ 32 := constantI S_ 32 50257#32
  let main_v8 : IVec S4x4096 32 := broadcastInDim S4x4096 ![] bcast_S_S4x4096 main_c_2
  let main_v9 : IVec S4x4096 1 := cmpi .slt main_arg0 main_v8
  let main_c_3 : IVec S_ 1 := constantI S_ 1 1#1
  let main_v10 : IVec S_ 1 := (fun x v => Host.reduce IntOp.andi x v reducesTo_S4x4096_S_d0_1 h_S_) main_v9 main_c_3
  let main_v11 : IVec S_ 1 := andi main_v7 main_v10
  main_v11
-- ==== Kernel.lean ====
abbrev S4x4096 : Shape := ⟨2, ![4, 4096]⟩
abbrev S50257x1024 : Shape := ⟨2, ![50257, 1024]⟩
abbrev S16384 : Shape := ⟨1, ![16384]⟩
abbrev S_ : Shape := ⟨0, ![]⟩
abbrev S16384x1024 : Shape := ⟨2, ![16384, 1024]⟩
abbrev S8x1024 : Shape := ⟨2, ![8, 1024]⟩
abbrev S8 : Shape := ⟨1, ![8]⟩
abbrev S1 : Shape := ⟨1, ![1]⟩
abbrev S1x1024 : Shape := ⟨2, ![1, 1024]⟩
abbrev S4x4096x1024 : Shape := ⟨3, ![4, 4096, 1024]⟩

abbrev nBuf : Space → Nat
  | .hbm => 12
  | .vmem => 2
  | .smem => 1
  | _ => 0

abbrev bufTy : (tb : Table) → Fin (tcTables nBuf tb) → BufTy
  | .hbm, ⟨0, _⟩ => ⟨S4x4096, .i32⟩
  | .hbm, ⟨1, _⟩ => ⟨S50257x1024, .f32⟩
  | .hbm, ⟨2, _⟩ => ⟨S16384, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S16384, .i32⟩
  | .hbm, ⟨7, _⟩ => ⟨S16384, .i32⟩
  | .hbm, ⟨8, _⟩ => ⟨S_, .i32⟩
  | .hbm, ⟨9, _⟩ => ⟨S16384, .i32⟩
  | .hbm, ⟨10, _⟩ => ⟨S16384x1024, .f32⟩
  | .hbm, ⟨11, _⟩ => ⟨S4x4096x1024, .f32⟩
  | .local _ .vmem, ⟨0, _⟩ => ⟨S8x1024, .f32⟩
  | .local _ .vmem, ⟨1, _⟩ => ⟨S8x1024, .f32⟩
  | .local _ .smem, ⟨0, _⟩ => ⟨S16384, .i32⟩
  | _, _ => ⟨S4x4096, .i32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_c_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v2 : Ref sig .tc := ⟨.hbm, 10, rfl⟩
abbrev main_v3 : Ref sig .tc := ⟨.hbm, 11, rfl⟩
abbrev main_v1 : Ref sig .tc := ⟨.smem, 0, rfl⟩
abbrev cc0_stg0_0 : Ref sig .tc := ⟨.vmem, 0, rfl⟩
abbrev cc0_stg0_1 : Ref sig .tc := ⟨.vmem, 1, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨1, ![2048], ![false]⟩

abbrev pre0 : Pipeline.Prefetch sig := ⟨1, ![main_v1.idx], fun | 0 => main_v1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k0_off2 (v3 : BitVec 32) : Fin 2 → Nat :=
  let c0_i32_3 : BitVec 32 := 0#32
  ![v3.toNat, 0]

def k0_off3 (i : grid0.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v8 : BitVec 32 := Scalar.addi v0 c1_i32
  let v9 : Index := Scalar.indexCast v8
  ![v9.toNat]
def k0_off4 (v10 : BitVec 32) : Fin 2 → Nat :=
  let c0_i32_7 : BitVec 32 := 0#32
  ![v10.toNat, 0]

def k0_off5 (i : grid0.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v15 : BitVec 32 := Scalar.addi v0 c2_i32
  let v16 : Index := Scalar.indexCast v15
  ![v16.toNat]
def k0_off6 (v17 : BitVec 32) : Fin 2 → Nat :=
  let c0_i32_11 : BitVec 32 := 0#32
  ![v17.toNat, 0]

def k0_off7 (i : grid0.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v22 : BitVec 32 := Scalar.addi v0 c3_i32
  let v23 : Index := Scalar.indexCast v22
  ![v23.toNat]
def k0_off8 (v24 : BitVec 32) : Fin 2 → Nat :=
  let c0_i32_15 : BitVec 32 := 0#32
  ![v24.toNat, 0]

def k0_off9 (i : grid0.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v29 : BitVec 32 := Scalar.addi v0 c4_i32
  let v30 : Index := Scalar.indexCast v29
  ![v30.toNat]
def k0_off10 (v31 : BitVec 32) : Fin 2 → Nat :=
  let c0_i32_19 : BitVec 32 := 0#32
  ![v31.toNat, 0]

def k0_off11 (i : grid0.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v36 : BitVec 32 := Scalar.addi v0 c5_i32
  let v37 : Index := Scalar.indexCast v36
  ![v37.toNat]
def k0_off12 (v38 : BitVec 32) : Fin 2 → Nat :=
  let c0_i32_23 : BitVec 32 := 0#32
  ![v38.toNat, 0]

def k0_off13 (i : grid0.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v43 : BitVec 32 := Scalar.addi v0 c6_i32
  let v44 : Index := Scalar.indexCast v43
  ![v44.toNat]
def k0_off14 (v45 : BitVec 32) : Fin 2 → Nat :=
  let c0_i32_27 : BitVec 32 := 0#32
  ![v45.toNat, 0]

def k0_off15 (i : grid0.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v50 : BitVec 32 := Scalar.addi v0 c7_i32
  let v51 : Index := Scalar.indexCast v50
  ![v51.toNat]
def k0_off16 (v52 : BitVec 32) : Fin 2 → Nat :=
  let c0_i32_31 : BitVec 32 := 0#32
  ![v52.toNat, 0]

def k0_chk8 (v52 : BitVec 32) : Prop :=
  (∀ a, (k0_off16 v52) a + S1x1024.size a ≤ S50257x1024.size a)
instance k0_chk8.dec : ∀ (v52 : BitVec 32), Decidable (k0_chk8 v52) := fun v52 => decidable_of_iff' _ (Iff.of_eq (k0_chk8.eq_1 v52))
theorem k0_off16_inb : ∀ (v52 : BitVec 32) (k0_hw8 : k0_chk8 v52), ∀ a, (k0_off16 v52) a + S1x1024.size a ≤ S50257x1024.size a := fun v52 k0_hw8 => k0_hw8

def k0_off17 (v3 : BitVec 32) : Fin 2 → Nat :=
  let c0_i32_35 : BitVec 32 := 0#32
  ![v3.toNat, 0]

def k0_chk1 (v3 : BitVec 32) : Prop :=
  (∀ a, (k0_off2 v3) a + S1x1024.size a ≤ S50257x1024.size a) ∧
  (∀ a, (k0_off17 v3) a + S1x1024.size a ≤ S50257x1024.size a)
instance k0_chk1.dec : ∀ (v3 : BitVec 32), Decidable (k0_chk1 v3) := fun v3 => decidable_of_iff' _ (Iff.of_eq (k0_chk1.eq_1 v3))
theorem k0_off2_inb : ∀ (v3 : BitVec 32) (k0_hw1 : k0_chk1 v3), ∀ a, (k0_off2 v3) a + S1x1024.size a ≤ S50257x1024.size a := fun v3 k0_hw1 => k0_hw1.1
theorem k0_off17_inb : ∀ (v3 : BitVec 32) (k0_hw1 : k0_chk1 v3), ∀ a, (k0_off17 v3) a + S1x1024.size a ≤ S50257x1024.size a := fun v3 k0_hw1 => k0_hw1.2

def k0_off18 (v10 : BitVec 32) : Fin 2 → Nat :=
  let c0_i32_39 : BitVec 32 := 0#32
  ![v10.toNat, 0]

def k0_chk2 (v10 : BitVec 32) : Prop :=
  (∀ a, (k0_off4 v10) a + S1x1024.size a ≤ S50257x1024.size a) ∧
  (∀ a, (k0_off18 v10) a + S1x1024.size a ≤ S50257x1024.size a)
instance k0_chk2.dec : ∀ (v10 : BitVec 32), Decidable (k0_chk2 v10) := fun v10 => decidable_of_iff' _ (Iff.of_eq (k0_chk2.eq_1 v10))
theorem k0_off4_inb : ∀ (v10 : BitVec 32) (k0_hw2 : k0_chk2 v10), ∀ a, (k0_off4 v10) a + S1x1024.size a ≤ S50257x1024.size a := fun v10 k0_hw2 => k0_hw2.1
theorem k0_off18_inb : ∀ (v10 : BitVec 32) (k0_hw2 : k0_chk2 v10), ∀ a, (k0_off18 v10) a + S1x1024.size a ≤ S50257x1024.size a := fun v10 k0_hw2 => k0_hw2.2

def k0_off19 (v17 : BitVec 32) : Fin 2 → Nat :=
  let c0_i32_43 : BitVec 32 := 0#32
  ![v17.toNat, 0]

def k0_chk3 (v17 : BitVec 32) : Prop :=
  (∀ a, (k0_off6 v17) a + S1x1024.size a ≤ S50257x1024.size a) ∧
  (∀ a, (k0_off19 v17) a + S1x1024.size a ≤ S50257x1024.size a)
instance k0_chk3.dec : ∀ (v17 : BitVec 32), Decidable (k0_chk3 v17) := fun v17 => decidable_of_iff' _ (Iff.of_eq (k0_chk3.eq_1 v17))
theorem k0_off6_inb : ∀ (v17 : BitVec 32) (k0_hw3 : k0_chk3 v17), ∀ a, (k0_off6 v17) a + S1x1024.size a ≤ S50257x1024.size a := fun v17 k0_hw3 => k0_hw3.1
theorem k0_off19_inb : ∀ (v17 : BitVec 32) (k0_hw3 : k0_chk3 v17), ∀ a, (k0_off19 v17) a + S1x1024.size a ≤ S50257x1024.size a := fun v17 k0_hw3 => k0_hw3.2

def k0_off20 (v24 : BitVec 32) : Fin 2 → Nat :=
  let c0_i32_47 : BitVec 32 := 0#32
  ![v24.toNat, 0]

def k0_chk4 (v24 : BitVec 32) : Prop :=
  (∀ a, (k0_off8 v24) a + S1x1024.size a ≤ S50257x1024.size a) ∧
  (∀ a, (k0_off20 v24) a + S1x1024.size a ≤ S50257x1024.size a)
instance k0_chk4.dec : ∀ (v24 : BitVec 32), Decidable (k0_chk4 v24) := fun v24 => decidable_of_iff' _ (Iff.of_eq (k0_chk4.eq_1 v24))
theorem k0_off8_inb : ∀ (v24 : BitVec 32) (k0_hw4 : k0_chk4 v24), ∀ a, (k0_off8 v24) a + S1x1024.size a ≤ S50257x1024.size a := fun v24 k0_hw4 => k0_hw4.1
theorem k0_off20_inb : ∀ (v24 : BitVec 32) (k0_hw4 : k0_chk4 v24), ∀ a, (k0_off20 v24) a + S1x1024.size a ≤ S50257x1024.size a := fun v24 k0_hw4 => k0_hw4.2

def k0_off21 (v31 : BitVec 32) : Fin 2 → Nat :=
  let c0_i32_51 : BitVec 32 := 0#32
  ![v31.toNat, 0]

def k0_chk5 (v31 : BitVec 32) : Prop :=
  (∀ a, (k0_off10 v31) a + S1x1024.size a ≤ S50257x1024.size a) ∧
  (∀ a, (k0_off21 v31) a + S1x1024.size a ≤ S50257x1024.size a)
instance k0_chk5.dec : ∀ (v31 : BitVec 32), Decidable (k0_chk5 v31) := fun v31 => decidable_of_iff' _ (Iff.of_eq (k0_chk5.eq_1 v31))
theorem k0_off10_inb : ∀ (v31 : BitVec 32) (k0_hw5 : k0_chk5 v31), ∀ a, (k0_off10 v31) a + S1x1024.size a ≤ S50257x1024.size a := fun v31 k0_hw5 => k0_hw5.1
theorem k0_off21_inb : ∀ (v31 : BitVec 32) (k0_hw5 : k0_chk5 v31), ∀ a, (k0_off21 v31) a + S1x1024.size a ≤ S50257x1024.size a := fun v31 k0_hw5 => k0_hw5.2

def k0_off22 (v38 : BitVec 32) : Fin 2 → Nat :=
  let c0_i32_55 : BitVec 32 := 0#32
  ![v38.toNat, 0]

def k0_chk6 (v38 : BitVec 32) : Prop :=
  (∀ a, (k0_off12 v38) a + S1x1024.size a ≤ S50257x1024.size a) ∧
  (∀ a, (k0_off22 v38) a + S1x1024.size a ≤ S50257x1024.size a)
instance k0_chk6.dec : ∀ (v38 : BitVec 32), Decidable (k0_chk6 v38) := fun v38 => decidable_of_iff' _ (Iff.of_eq (k0_chk6.eq_1 v38))
theorem k0_off12_inb : ∀ (v38 : BitVec 32) (k0_hw6 : k0_chk6 v38), ∀ a, (k0_off12 v38) a + S1x1024.size a ≤ S50257x1024.size a := fun v38 k0_hw6 => k0_hw6.1
theorem k0_off22_inb : ∀ (v38 : BitVec 32) (k0_hw6 : k0_chk6 v38), ∀ a, (k0_off22 v38) a + S1x1024.size a ≤ S50257x1024.size a := fun v38 k0_hw6 => k0_hw6.2

def k0_off23 (v45 : BitVec 32) : Fin 2 → Nat :=
  let c0_i32_59 : BitVec 32 := 0#32
  ![v45.toNat, 0]

def k0_chk7 (v45 : BitVec 32) : Prop :=
  (∀ a, (k0_off14 v45) a + S1x1024.size a ≤ S50257x1024.size a) ∧
  (∀ a, (k0_off23 v45) a + S1x1024.size a ≤ S50257x1024.size a)
instance k0_chk7.dec : ∀ (v45 : BitVec 32), Decidable (k0_chk7 v45) := fun v45 => decidable_of_iff' _ (Iff.of_eq (k0_chk7.eq_1 v45))
theorem k0_off14_inb : ∀ (v45 : BitVec 32) (k0_hw7 : k0_chk7 v45), ∀ a, (k0_off14 v45) a + S1x1024.size a ≤ S50257x1024.size a := fun v45 k0_hw7 => k0_hw7.1
theorem k0_off23_inb : ∀ (v45 : BitVec 32) (k0_hw7 : k0_chk7 v45), ∀ a, (k0_off23 v45) a + S1x1024.size a ≤ S50257x1024.size a := fun v45 k0_hw7 => k0_hw7.2

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

class Facts₀ : Prop where
  shapeCasts_S4x4096_S16384 : S4x4096.ShapeCasts S16384
  bcast_S_S16384 : S_.BroadcastsInDim S16384 (![] : Fin 0 → Fin S16384.rank)
  numel1_S1 : S1.numel = 1
  inb_S8_S1_0 : ∀ a, (![0] : Fin 1 → Nat) a + S1.size a ≤ S8.size a
  squeezes_S1_S_ : S1.Squeezes S_
  inb_S8x1024_S1x1024_0_0 : ∀ a, (![0, 0] : Fin 2 → Nat) a + S1x1024.size a ≤ S8x1024.size a
  inb_S8_S1_1 : ∀ a, (![1] : Fin 1 → Nat) a + S1.size a ≤ S8.size a
  inb_S8x1024_S1x1024_1_0 : ∀ a, (![1, 0] : Fin 2 → Nat) a + S1x1024.size a ≤ S8x1024.size a
  inb_S8_S1_2 : ∀ a, (![2] : Fin 1 → Nat) a + S1.size a ≤ S8.size a
  inb_S8x1024_S1x1024_2_0 : ∀ a, (![2, 0] : Fin 2 → Nat) a + S1x1024.size a ≤ S8x1024.size a
  inb_S8_S1_3 : ∀ a, (![3] : Fin 1 → Nat) a + S1.size a ≤ S8.size a
  inb_S8x1024_S1x1024_3_0 : ∀ a, (![3, 0] : Fin 2 → Nat) a + S1x1024.size a ≤ S8x1024.size a
  inb_S8_S1_4 : ∀ a, (![4] : Fin 1 → Nat) a + S1.size a ≤ S8.size a
  inb_S8x1024_S1x1024_4_0 : ∀ a, (![4, 0] : Fin 2 → Nat) a + S1x1024.size a ≤ S8x1024.size a
  inb_S8_S1_5 : ∀ a, (![5] : Fin 1 → Nat) a + S1.size a ≤ S8.size a
  inb_S8x1024_S1x1024_5_0 : ∀ a, (![5, 0] : Fin 2 → Nat) a + S1x1024.size a ≤ S8x1024.size a
  inb_S8_S1_6 : ∀ a, (![6] : Fin 1 → Nat) a + S1.size a ≤ S8.size a
  inb_S8x1024_S1x1024_6_0 : ∀ a, (![6, 0] : Fin 2 → Nat) a + S1x1024.size a ≤ S8x1024.size a
  inb_S8_S1_7 : ∀ a, (![7] : Fin 1 → Nat) a + S1.size a ≤ S8.size a
  inb_S8x1024_S1x1024_7_0 : ∀ a, (![7, 0] : Fin 2 → Nat) a + S1x1024.size a ≤ S8x1024.size a
  shapeCasts_S16384x1024_S4x4096x1024 : S16384x1024.ShapeCasts S4x4096x1024
  hcc0_scratch0 : 2 + S8.numel ≤ 10
  hrank0 : 0 < grid0.rank
  k0_off1_inb : ∀ i : grid0.Coords, ∀ a, (k0_off1 i) a + S1.size a ≤ S16384.size a
  k0_off3_inb : ∀ i : grid0.Coords, ∀ a, (k0_off3 i) a + S1.size a ≤ S16384.size a
  k0_off5_inb : ∀ i : grid0.Coords, ∀ a, (k0_off5 i) a + S1.size a ≤ S16384.size a
  k0_off7_inb : ∀ i : grid0.Coords, ∀ a, (k0_off7 i) a + S1.size a ≤ S16384.size a
  k0_off9_inb : ∀ i : grid0.Coords, ∀ a, (k0_off9 i) a + S1.size a ≤ S16384.size a
  k0_off11_inb : ∀ i : grid0.Coords, ∀ a, (k0_off11 i) a + S1.size a ≤ S16384.size a
  k0_off13_inb : ∀ i : grid0.Coords, ∀ a, (k0_off13 i) a + S1.size a ≤ S16384.size a
  k0_off15_inb : ∀ i : grid0.Coords, ∀ a, (k0_off15 i) a + S1.size a ≤ S16384.size a
  hstage0_0 : ∀ j, (stage0_0 j).IsWhole
  nbuf0_0 : grid0.bufCount reads0_0 false = 2
  hreads0_0 : ∀ i i' : grid0.Coords, (∀ a, reads0_0 a = true → i a = i' a) → cc0_transform_1 i = cc0_transform_1 i'
  hinb0_0 : ∀ (i : grid0.Coords) a, (cc0_transform_1 i a + 1) * S8x1024.size a ≤ S16384x1024.size a
  hwx0_0 : ∀ i : grid0.Coords, EltTy.bits .f32 = 32 ∨ (Rect.block (s := S16384x1024) S8x1024.size (cc0_transform_1 i) (hinb0_0 i)).WholeWords (EltTy.packing .f32)

variable [Facts₀]

abbrev cc0_scratch0 : DmaSems sig S8 := SemArray.consecutive 2 S8 hcc0_scratch0

abbrev spec0_0 : Pipeline.WinSpec sig grid0.rank :=
  Pipeline.WinSpec.ofSpec (Memref.whole main_v2) S8x1024.size reads0_0 true false 2 stage0_0 sem0_0 nbuf0_0 hstage0_0

abbrev spec0 : Fin 1 → Pipeline.WinSpec sig grid0.rank := fun | 0 => spec0_0 | ⟨_ + 1, h⟩ => absurd h (Nat.not_lt.2 (Nat.le_add_left _ _))
theorem hcount0 : ∀ w, grid0.bufCount (spec0 w).reads (spec0 w).sync = (spec0 w).nbuf := fun | 0 => nbuf0_0 | ⟨_ + 1, h⟩ => absurd h (Nat.not_lt.2 (Nat.le_add_left _ _))
abbrev ix0 (pf : pre0.Contents (Elt F)) : (w : Fin 1) → grid0.Coords → Fin (spec0 w).shape.rank → Nat := fun | 0 => cc0_transform_1 | ⟨_ + 1, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | ⟨_ + 1, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | ⟨_ + 1, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | ⟨_ + 1, h⟩ => absurd h (Nat.not_lt.2 (Nat.le_add_left _ _))

class Facts : Prop extends Facts₀ where
  harr0 : ∀ w, (spec0 w).arr.IsWhole

variable [Facts]
-- ==== ReferenceIdeal.lean ====
abbrev S4x4096 : Shape := ⟨2, ![4, 4096]⟩
abbrev S50257x1024 : Shape := ⟨2, ![50257, 1024]⟩
abbrev S_ : Shape := ⟨0, ![]⟩
abbrev S4x4096x1 : Shape := ⟨3, ![4, 4096, 1]⟩
abbrev S1 : Shape := ⟨1, ![1]⟩
abbrev S1x1x1 : Shape := ⟨3, ![1, 1, 1]⟩
abbrev S4x4096x1024 : Shape := ⟨3, ![4, 4096, 1024]⟩

abbrev nBuf : Space → Nat
  | .hbm => 25
  | .vmem => 0
  | .smem => 0
  | _ => 0

abbrev bufTy : (tb : Table) → Fin (tcTables nBuf tb) → BufTy
  | .hbm, ⟨0, _⟩ => ⟨S4x4096, .i32⟩
  | .hbm, ⟨1, _⟩ => ⟨S50257x1024, .f32⟩
  | .hbm, ⟨2, _⟩ => ⟨S_, .i32⟩
  | .hbm, ⟨3, _⟩ => ⟨S4x4096, .i32⟩
  | .hbm, ⟨4, _⟩ => ⟨S4x4096, .i1⟩
  | .hbm, ⟨5, _⟩ => ⟨S_, .i32⟩
  | .hbm, ⟨6, _⟩ => ⟨S4x4096, .i32⟩
  | .hbm, ⟨7, _⟩ => ⟨S4x4096, .i32⟩
  | .hbm, ⟨8, _⟩ => ⟨S4x4096, .i32⟩
  | .hbm, ⟨9, _⟩ => ⟨S4x4096x1, .i32⟩
  | .hbm, ⟨10, _⟩ => ⟨S1, .i32⟩
  | .hbm, ⟨11, _⟩ => ⟨S_, .i32⟩
  | .hbm, ⟨12, _⟩ => ⟨S4x4096x1, .i32⟩
  | .hbm, ⟨13, _⟩ => ⟨S4x4096x1, .i1⟩
  | .hbm, ⟨14, _⟩ => ⟨S1x1x1, .i32⟩
  | .hbm, ⟨15, _⟩ => ⟨S4x4096x1, .i32⟩
  | .hbm, ⟨16, _⟩ => ⟨S4x4096x1, .i1⟩
  | .hbm, ⟨17, _⟩ => ⟨S4x4096x1, .i1⟩
  | .hbm, ⟨18, _⟩ => ⟨S_, .i1⟩
  | .hbm, ⟨19, _⟩ => ⟨S4x4096, .i1⟩
  | .hbm, ⟨20, _⟩ => ⟨S4x4096x1024, .f32⟩
  | .hbm, ⟨21, _⟩ => ⟨S4x4096x1024, .i1⟩
  | .hbm, ⟨22, _⟩ => ⟨S_, .f32⟩
  | .hbm, ⟨23, _⟩ => ⟨S4x4096x1024, .f32⟩
  | .hbm, ⟨24, _⟩ => ⟨S4x4096x1024, .f32⟩
  | _, _ => ⟨S4x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]

class Facts₀ : Prop where
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S1_S1x1x1_2 : S1.BroadcastsInDim S1x1x1 (![2] : Fin 1 → Fin S1x1x1.rank)
  bcast_S1x1x1_S4x4096x1_0_1_2 : S1x1x1.BroadcastsInDim S4x4096x1 (![0, 1, 2] : Fin 3 → Fin S4x4096x1.rank)
  reducesTo_S4x4096x1_S4x4096_d2 : S4x4096x1.ReducesTo [2] S4x4096
  h_S_ : 0 < S_.numel
  bcast_S4x4096_S4x4096x1024_0_1 : S4x4096.BroadcastsInDim S4x4096x1024 (![0, 1] : Fin 2 → Fin S4x4096x1024.rank)
  bcast_S_S4x4096x1024 : S_.BroadcastsInDim S4x4096x1024 (![] : Fin 0 → Fin S4x4096x1024.rank)
  gather_S50257x1024_S4x4096x1_S4x4096x1024_2_0_n_n_0_2_11024_wf : GatherDims.WF S50257x1024 S4x4096x1 S4x4096x1024 [2] [0] [] [0] [] 2 ![1, 1024]

variable [Facts₀]

def gather_S50257x1024_S4x4096x1_S4x4096x1024_2_0_n_n_0_2_11024 : GatherDims S50257x1024 S4x4096x1 S4x4096x1024 where
  offsetDims := [2]
  collapsedSliceDims := [0]
  operandBatchingDims := []
  startIndicesBatchingDims := []
  startIndexMap := [0]
  indexVectorDim := 2
  sliceSizes := ![1, 1024]
  wf := gather_S50257x1024_S4x4096x1_S4x4096x1024_2_0_n_n_0_2_11024_wf

class Facts : Prop extends Facts₀ where

variable [Facts]
-- ==== Proof.Spec.lean ====
/-
  What both programs compute, stated once over literal shapes and no program: an embedding lookup. The result
  array of shape (4, 4096, 1024) holds at (b, s, d) the entry d of the table's row selected by the token word
  at (b, s). A token word selects a row through its signed value clamped into the table (`rowOf`); for words in
  range, 0 ≤ x < 50257, the clamp does nothing and the row is the word's own value. The kernel first clips every
  word into [0, 50256] (a signed maximum with 0, then a signed minimum with 50256) and uses the clipped word's
  unsigned value as the row (`clipWord`, `rowOfClip`); on words in range the two rows agree (`rowOfClip_eq`).
-/
import Idealize.ShloMosaic.PureOps.Ideal
import Idealize.ShloMosaic.Lib.ValueIdx

noncomputable section

namespace Cert.Spec

open Idealize.ShloMosaic Idealize.ShloMosaic.ValueIdx

abbrev SIds : Shape := ⟨2, ![4, 4096]⟩
abbrev STab : Shape := ⟨2, ![50257, 1024]⟩
abbrev SOut : Shape := ⟨3, ![4, 4096, 1024]⟩

/-- Every token word is a row number of the table: 0 ≤ x < 50257 as a signed integer. -/
def InRange (ids : IVec SIds 32) : Prop := ∀ i, (0 : Int) ≤ (ids i).toInt ∧ (ids i).toInt < 50257

/-- The row a token word selects: its signed value, clamped into the table's rows. -/
def rowOf (x : BitVec 32) : Fin 50257 := ⟨min x.toInt.toNat 50256, by omega⟩

/-- The kernel's clip of a token word into [0, 50256]: a signed maximum with 0, then a signed minimum with 50256. -/
def clipWord (x : BitVec 32) : BitVec 32 := IntOp.minsi 50256#32 (IntOp.maxsi 0#32 x)

/-- The token word at (b, s). -/
def wordAt (ids : IVec SIds 32) (b : Fin 4) (s : Fin 4096) : BitVec 32 := ids (ix2 b s)

/-- The three coordinates of a result index, typed by their literal extents. -/
def coord0 (j : SOut.Idx) : Fin 4 := ⟨(j 0).val, show (j 0).val < 4 from (j 0).isLt⟩
def coord1 (j : SOut.Idx) : Fin 4096 := ⟨(j 1).val, show (j 1).val < 4096 from (j 1).isLt⟩
def coord2 (j : SOut.Idx) : Fin 1024 := ⟨(j 2).val, show (j 2).val < 1024 from (j 2).isLt⟩

/-- The lookup: entry (b, s, d) is entry d of the row the word at (b, s) selects. -/
def gathered {α : Type} (ids : IVec SIds 32) (w : STab.Idx → α) : SOut.Idx → α :=
  fun j => w (ix2 (rowOf (wordAt ids (coord0 j) (coord1 j))) (coord2 j))

/-- A clipped word is a row number. -/
theorem clipWord_toNat_lt (x : BitVec 32) : (clipWord x).toNat < 50257 := by
  unfold clipWord IntOp.minsi IntOp.maxsi
  by_cases h0 : x.slt 0#32
  · simp only [h0, if_true]
    split <;> simp
  · simp only [h0]
    by_cases h1 : (50256#32 : BitVec 32).slt x
    · simp only [Bool.false_eq_true, if_false, h1, if_true]; decide
    · simp only [Bool.false_eq_true, if_false, h1]
      have h0' : ¬ x.toInt < 0 := by simpa [BitVec.slt] using h0
      have h1' : ¬ (50256 : Int) < x.toInt := by simpa [BitVec.slt] using h1
      have := BitVec.toInt_eq_toNat_cond x
      split at this <;> omega

/-- The row the kernel reads for a token word: the clipped word's unsigned value. -/
def rowOfClip (x : BitVec 32) : Fin 50257 := ⟨(clipWord x).toNat, clipWord_toNat_lt x⟩

/-- The kernel's lookup: the same, through the clipped words. -/
def gatheredClip {α : Type} (ids : IVec SIds 32) (w : STab.Idx → α) : SOut.Idx → α :=
  fun j => w (ix2 (rowOfClip (wordAt ids (coord0 j) (coord1 j))) (coord2 j))

/-- On a word in range the clip does nothing and both rows are the word's value. -/
theorem rowOfClip_eq (x : BitVec 32) (h0 : (0 : Int) ≤ x.toInt) (h1 : x.toInt < 50257) : rowOfClip x = rowOf x := by
  refine Fin.ext ?_
  show (clipWord x).toNat = min x.toInt.toNat 50256
  unfold clipWord IntOp.minsi IntOp.maxsi
  have hs0 : x.slt 0#32 = false := by simp [BitVec.slt]; omega
  have hs1 : (50256#32 : BitVec 32).slt x = false := by simp [BitVec.slt]; omega
  have hx := BitVec.toInt_eq_toNat_cond x
  simp only [hs0, Bool.false_eq_true, if_false, hs1]
  split at hx <;> omega

/-- On words in range the kernel's lookup is the lookup. -/
theorem gatheredClip_eq {α : Type} (ids : IVec SIds 32) (w : STab.Idx → α) (h : InRange ids) :
    gatheredClip ids w = gathered ids w := by
  funext j
  have e := rowOfClip_eq (wordAt ids (coord0 j) (coord1 j)) (h (ix2 (coord0 j) (coord1 j))).1 (h (ix2 (coord0 j) (coord1 j))).2
  exact congrArg (fun r => w (ix2 r (coord2 j))) e

end Cert.Spec

end
-- ==== Proof.PreIds.lean ====
import proofs.«419301_j71760313581990_2_alg».proof.Pre_finite_inputs
import proofs.«419301_j71760313581990_2_alg».proof.Proof.Gen.Pre_finite_inputs
import proofs.«419301_j71760313581990_2_alg».proof.Proof.Spec
import Idealize.ShloMosaic.Lib.ReduceAll
import Idealize.ShloMosaic.Lib.StableHlo.Predicate
noncomputable section
namespace Cert.PreIds
open Idealize.ShloMosaic
/-- Where the printed precondition holds, every token word is a row number: 0 ≤ x < 50257 as a signed integer. -/
theorem inRange {F : FTy → Type} [FloatOps F] [Cert.Pre_finite_inputs.Facts]
    (ids : IVec Cert.Pre_finite_inputs.S4x4096 32) (w : FVec F Cert.Pre_finite_inputs.S50257x1024 .f32)
    (h : Cert.Pre_finite_inputs.fn (F := F) ids w = fun _ => 1#1) : Cert.Spec.InRange ids := by
  -- the predicate's value at the one index of its rank-0 result
  have h0 := congrFun h ValueIdx.ix0
  dsimp only [Cert.Pre_finite_inputs.fn, Idealize.ShloMosaic.andi] at h0
  -- a conjunction of three bits is 1 only if each is; the first (the table's entries are finite) is not needed
  obtain ⟨h7, hlt⟩ := IntOp.andi_eq_one.1 h0
  obtain ⟨-, hge⟩ := IntOp.andi_eq_one.1 h7
  haveI : Subsingleton Cert.Pre_finite_inputs.S_.Idx := ⟨fun a b => funext fun d => d.elim0⟩
  intro i
  -- an "all" over both axes that is 1 had a 1 at every word
  have hge' := Host.reduce_andi_all _ _ _ _ _ hge i
  have hlt' := Host.reduce_andi_all _ _ _ _ _ hlt i
  -- each bit is a signed comparison of the word at i with a constant spread over the array
  dsimp only [Idealize.ShloMosaic.cmpi, broadcastInDim, constantI] at hge' hlt'
  have e0 : (0#32 : BitVec 32).toInt = 0 := by decide
  have e1 : (50257#32 : BitVec 32).toInt = 50257 := by decide
  have a := IntOp.cmpi_sge.1 hge'
  have b := IntOp.cmpi_slt.1 hlt'
  rw [e0] at a
  rw [e1] at b
  exact ⟨a, b⟩
end Cert.PreIds
end
-- ==== Proof.RefTerm.lean ====
/-
  The reference's result as one pure function of its two arguments: the operations of its lookup in order. A negative
  word is moved up by the table's length (50257); a word is valid when, after that, it lies in [0, 50256]; the rows are
  gathered at the moved words (the gather clamps a start index into the table); an invalid word's row is replaced by the
  not-a-number fill.
-/
import proofs.«419301_j71760313581990_2_alg».proof.ReferenceIdeal
import proofs.«419301_j71760313581990_2_alg».proof.Proof.Gen.ReferenceIdeal

noncomputable section

namespace Cert.ReferenceIdeal.RefRun

open Idealize.ShloMosaic Cert.ReferenceIdeal Cert.ReferenceIdeal.Facts₀

variable {F : FTy → Type} [FloatOps F]

/-- The moved words: a negative word plus 50257, any other word itself. -/
def movedIds (ids : IVec S4x4096 32) : IVec S4x4096 32 :=
  select (cmpi .slt ids (broadcastInDim S4x4096 ![] bcast_S_S4x4096 (constantI S_ 32 0#32)))
    (addi ids (broadcastInDim S4x4096 ![] bcast_S_S4x4096 (constantI S_ 32 50257#32))) ids

/-- The moved words as start indices of the gather: a trailing unit axis added. -/
def startIdx (ids : IVec S4x4096 32) : IVec S4x4096x1 32 :=
  broadcastInDim S4x4096x1 ![0, 1] bcast_S4x4096_S4x4096x1_0_1 (movedIds ids)

/-- Which words are valid: 0 ≤ moved word ≤ 50256, the conjunction taken over the unit axis. -/
def validIds (ids : IVec S4x4096 32) : IVec S4x4096 1 :=
  Host.reduce IntOp.andi
    (andi (cmpi .sge (startIdx ids) (broadcastInDim S4x4096x1 ![] bcast_S_S4x4096x1 (constantI S_ 32 0#32)))
      (cmpi .sle (startIdx ids) (broadcastInDim S4x4096x1 ![0, 1, 2] bcast_S1x1x1_S4x4096x1_0_1_2
        (broadcastInDim S1x1x1 ![2] bcast_S1_S1x1x1_2 (constantI S1 32 50256#32)))))
    (constantI S_ 1 1#1) reducesTo_S4x4096x1_S4x4096_d2 h_S_

/-- The reference's result: the gathered rows where the word is valid, the fill elsewhere. -/
def refTerm (ids : IVec S4x4096 32) (w : FVec F S50257x1024 .f32) : FVec F S4x4096x1024 .f32 :=
  select (broadcastInDim S4x4096x1024 ![0, 1] bcast_S4x4096_S4x4096x1024_0_1 (validIds ids))
    (Host.gather gather_S50257x1024_S4x4096x1_S4x4096x1024_2_0_n_n_0_2_11024 w (startIdx ids))
    (broadcastInDim S4x4096x1024 ![] bcast_S_S4x4096x1024 (constant S_ .f32 0x7FC00000#32))

end Cert.ReferenceIdeal.RefRun

end
-- ==== Proof.LibCast.lean ====
/-
  A general fact about typed buffer references: contents carried to the buffer's own type and back are the
  contents.  (A typed reference pairs a buffer with an equation between the buffer's type and a stated type; the two
  transports along that equation are inverse to each other, whatever the buffer and the type are.)
-/
import Idealize.ShloMosaic.Lib.StableHlo

namespace Idealize.ShloMosaic.StableHlo.TRef

/-- Contents carried to a buffer's own type and back are the contents. -/
theorem ofBuf_toBuf {sig : RefSig} {Val : EltTy → Type} {T : BufTy} (x : TRef sig T) (v : T.Contents Val) :
    x.ofBuf (x.toBuf v) = v := by
  obtain ⟨r, h, h2, h3⟩ := x
  subst h
  rfl

/-- Contents of a buffer carried to a stated type and back are the contents. -/
theorem toBuf_ofBuf {sig : RefSig} {Val : EltTy → Type} {T : BufTy} (x : TRef sig T) (v : x.ref.ty.Contents Val) :
    x.toBuf (x.ofBuf v) = v := by
  obtain ⟨r, h, h2, h3⟩ := x
  subst h
  rfl

end Idealize.ShloMosaic.StableHlo.TRef
-- ==== Proof.RefRun.lean ====
/-
  The reference program's run. Its entry function is one call of the lookup function, which itself calls the
  three-way choice function; with both calls unfolded at their call sites the program is a straight line of
  twenty-three operations over the buffers the calls name. The line is run as a list: every weakly fair execution
  ends with each buffer at the fold of the operations' results over the launch contents, and at the result buffer
  that fold is the lookup's term of the two arguments.
-/
import proofs.«419301_j71760313581990_2_alg».proof.Proof.RefTerm
import proofs.«419301_j71760313581990_2_alg».proof.Proof.LibCast
import Idealize.ShloMosaic.Lib.StableHlo.Run
noncomputable section
namespace Cert.ReferenceIdeal.RefRun
open Idealize.ShloMosaic Idealize.ShloMosaic.TcCoe Idealize.SL.Sem Cert.ReferenceIdeal
open Idealize.ShloMosaic.StableHlo Cert.ReferenceIdeal.Facts₀
variable {F : FTy → Type} [FloatOps F]

/-- The words argument and the table argument as the typed references the lookup function is called on. -/
abbrev idsRef : TRef sig ⟨S4x4096, .i32⟩ := .of main_arg0
abbrev tableRef : TRef sig ⟨S50257x1024, .f32⟩ := .of main_arg1

/-- The program's operations in order, both calls unfolded: the comparison of the words with zero and the
    words moved up by the table's length (six operations), the choice between them (the inner call's one), the
    trailing unit axis, the two bounds and their comparisons, the conjunction and its reduction over the unit axis,
    the gather, the mask's broadcast, the fill and its broadcast, the final choice. -/
abbrev ops : List (HloOp τ sig (Elt F)) :=
  [ TRef.nullary main_call0.c (constantI S_ 32 0#32),
    TRef.unary main_call0.c main_call0.v0 (broadcastInDim S4x4096 ![] bcast_S_S4x4096),
    TRef.binary idsRef main_call0.v0 main_call0.v1 (cmpi .slt),
    TRef.nullary main_call0.c_0 (constantI S_ 32 50257#32),
    TRef.unary main_call0.c_0 main_call0.v2 (broadcastInDim S4x4096 ![] bcast_S_S4x4096),
    TRef.binary idsRef main_call0.v2 main_call0.v3 addi,
    TRef.ternary main_call0.v1 main_call0.v3 idsRef main_call0.call0.v0 select,
    TRef.unary main_call0.call0.v0 main_call0.v5 (broadcastInDim S4x4096x1 ![0, 1] bcast_S4x4096_S4x4096x1_0_1),
    TRef.nullary main_call0.c_1 (constantI S1 32 50256#32),
    TRef.nullary main_call0.c_2 (constantI S_ 32 0#32),
    TRef.unary main_call0.c_2 main_call0.v6 (broadcastInDim S4x4096x1 ![] bcast_S_S4x4096x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4x4096x1 ![0, 1, 2] bcast_S1x1x1_S4x4096x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12
      (fun x v => Host.reduce IntOp.andi x v reducesTo_S4x4096x1_S4x4096_d2 h_S_),
    TRef.binary tableRef main_call0.v5 main_call0.v13
      (fun x i => Host.gather gather_S50257x1024_S4x4096x1_S4x4096x1024_2_0_n_n_0_2_11024 x i),
    TRef.unary main_call0.v12 main_call0.v14 (broadcastInDim S4x4096x1024 ![0, 1] bcast_S4x4096_S4x4096x1024_0_1),
    TRef.nullary main_call0.cst (constant S_ .f32 0x7FC00000#32),
    TRef.unary main_call0.cst main_call0.v15 (broadcastInDim S4x4096x1024 ![] bcast_S_S4x4096x1024),
    TRef.ternary main_call0.v14 main_call0.v13 main_call0.v15 main_call0.v16 select ]

set_option maxRecDepth 1024 in
/-- The entry function is that straight line: the two functions' bodies unfolded at their calls, both sides are one
    chain of operation steps once sequencing is reassociated. -/
theorem main_eq (c : Dev nD) : main (F := F) c = seq ops := by
  simp only [main, fn_take.body, fn_where.body, seq, bind_assoc, pure_bind]

/-- At the three literal references whose contents the result term still carries across a change of type, the
    change is the identity. -/
theorem ids_ofBuf (v : main_arg0.ty.Contents (Elt F)) : (idsRef.ofBuf v : IVec S4x4096 32) = v := rfl
theorem table_ofBuf (v : main_arg1.ty.Contents (Elt F)) : (tableRef.ofBuf v : FVec F S50257x1024 .f32) = v := rfl
theorem out_toBuf (v : FVec F S4x4096x1024 .f32) :
    (main_call0.v16.toBuf (Val := Elt F) v : main_v0.ty.Contents (Elt F)) = v := rfl

theorem scopedRefs_eq : (Finset.univ.filter fun b : Ref sig .tc => b.isScoped) = ∅ := by decide
theorem scopedSems_eq : (Finset.univ.filter fun sm : SemLoc sig => sm.isScoped .tc) = ∅ := by decide

/-- Every operation of the line touches TensorCore buffers only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-- The fold of the line at the result buffer, from any contents: the lookup's term of the contents of the two
    argument buffers. Each operation's result at its own buffer is its function's value and at any other buffer what
    was there; contents carried to a buffer's type and back are the contents; what is left is the term, its four
    definitions unfolded. -/
theorem out_eq (V : Valuation τ sig (Elt F)) :
    after ops V (main_v0 : DevRef τ sig)
      = refTerm (V (main_arg0 : DevRef τ sig)) (V (main_arg1 : DevRef τ sig)) := by
  after_results_simp
  simp only [TRef.ofBuf_toBuf]
  simp only [ids_ofBuf, table_ofBuf]
  unfold refTerm validIds startIdx movedIds
  exact out_toBuf _

/-- No operation of the line writes the words argument. -/
theorem arg0_eq (V : Valuation τ sig (Elt F)) :
    after ops V (main_arg0 : DevRef τ sig) = V (main_arg0 : DevRef τ sig) := by
  after_results_simp

/-- No operation of the line writes the table argument. -/
theorem arg1_eq (V : Valuation τ sig (Elt F)) :
    after ops V (main_arg1 : DevRef τ sig) = V (main_arg1 : DevRef τ sig) := by
  after_results_simp

/-- Every weakly fair execution of the reference terminates without a fault, with its result at the lookup's term of the two arguments and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v0) = refTerm (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c main_v0).trans (out_eq _), (h c main_arg0).trans (arg0_eq _),
      (h c main_arg1).trans (arg1_eq _)⟩)
    (run_seq scopedRefs_eq scopedSems_eq defs main (fun _ => ops) main_eq (fun _ => ops_sub) m ρ)

end Cert.ReferenceIdeal.RefRun
end
-- ==== Proof.RefValue.lean ====
/-
  The reference's result, read index by index, is the plain lookup when every token word is in range. A word in range is
  not negative, so it is not moved; after the unit axis is added it is at least 0 and at most 50256, and the conjunction
  over that one-element axis is the conjunction of that single test with the initial value 1, so every word is valid; the
  gather reads the table at the row its start index names once that index is read signed and clamped into the table, and
  at the column the result's last coordinate names; a select on the bit 1 keeps the gathered value.
-/
import proofs.«419301_j71760313581990_2_alg».proof.Proof.RefTerm
import proofs.«419301_j71760313581990_2_alg».proof.Proof.Spec
import Idealize.ShloMosaic.Lib.ValueIdx
import Idealize.ShloMosaic.Lib.ReduceAll
noncomputable section
namespace Cert.ReferenceIdeal.RefValue
open Idealize.ShloMosaic Idealize.ShloMosaic.ValueIdx Cert.ReferenceIdeal Cert.ReferenceIdeal.RefRun
variable {F : FTy → Type} [FloatOps F]

/-- A word that is not negative is not below zero. -/
theorem cmpi_slt_zero (x : BitVec 32) (h : (0 : Int) ≤ x.toInt) : IntOp.cmpi .slt x 0#32 = 0#1 := by
  have hs : x.slt 0#32 = false := by simp [BitVec.slt]; omega
  simp only [IntOp.cmpi, hs]
  rfl

/-- A word that is not negative is at least zero. -/
theorem cmpi_sge_zero (x : BitVec 32) (h : (0 : Int) ≤ x.toInt) : IntOp.cmpi .sge x 0#32 = 1#1 := by
  have hs : (0#32 : BitVec 32).sle x = true := by simp [BitVec.sle]; omega
  simp only [IntOp.cmpi, hs]
  rfl

/-- A word below 50257 is at most 50256. -/
theorem cmpi_sle_last (x : BitVec 32) (h : x.toInt < 50257) : IntOp.cmpi .sle x 50256#32 = 1#1 := by
  have hs : x.sle 50256#32 = true := by simp [BitVec.sle]; omega
  simp only [IntOp.cmpi, hs]
  rfl

/-- No word in range is moved. -/
theorem movedIds_eq (ids : IVec S4x4096 32) (h : Cert.Spec.InRange ids) : movedIds ids = ids := by
  funext i
  show Scalar.select (IntOp.cmpi .slt (ids i) 0#32) _ (ids i) = ids i
  rw [cmpi_slt_zero _ (h i).1]
  exact select_zero _ _

/-- A start index is one of the token words. -/
theorem startIdx_apply (ids : IVec S4x4096 32) (h : Cert.Spec.InRange ids) (i : S4x4096x1.Idx) :
    ∃ k, startIdx ids i = ids k := by
  unfold startIdx
  rw [movedIds_eq ids h]
  exact ⟨_, rfl⟩

/-- A fold over an index range of one element is the operation at that element and the initial value. -/
theorem fold_univ_one {α : Type} (n : Nat) (hn : n = 1) (f : α → α → α) [Std.Commutative f] [Std.Associative f]
    (init : α) (g : Fin n → α) :
    (Finset.univ : Finset (Fin n)).fold f init g = f (g ⟨0, by omega⟩) init := by
  subst hn
  exact Finset.fold_singleton (op := f) (b := init) (f := g) (a := (0 : Fin 1))

/-- Every word in range is valid. -/
theorem validIds_apply (ids : IVec S4x4096 32) (h : Cert.Spec.InRange ids) (i : S4x4096.Idx) :
    validIds ids i = 1#1 := by
  unfold validIds
  rw [Host.reduce_eq_fold_single IntOp.andi _ _ _ (by decide : S4x4096x1.Reduces [2] S4x4096) _ i]
  rw [fold_univ_one (S4x4096x1.size 2) rfl]
  show IntOp.andi (IntOp.andi (IntOp.cmpi .sge (startIdx ids _) 0#32) (IntOp.cmpi .sle (startIdx ids _) 50256#32)) 1#1 = 1#1
  obtain ⟨k, hk⟩ := startIdx_apply ids h ((by decide : S4x4096x1.Reduces [2] S4x4096).lift i ⟨0, by decide⟩)
  rw [hk, cmpi_sge_zero _ (h k).1, cmpi_sle_last _ (h k).2]
  rfl

/-- The gather read at a result index: the table's row is the start index at the result's first two coordinates, read
    signed and clamped into the table; the column is the result's third coordinate. -/
theorem gather_apply {α : Type} (w : S50257x1024.Idx → α) (idx : IVec S4x4096x1 32) (j : S4x4096x1024.Idx) :
    Host.gather gather_S50257x1024_S4x4096x1_S4x4096x1024_2_0_n_n_0_2_11024 w idx j
      = w (ix2 (Cert.Spec.rowOf (idx (ix3 (Cert.Spec.coord0 j) (Cert.Spec.coord1 j) (0 : Fin 1)))) (Cert.Spec.coord2 j)) := by
  unfold Host.gather
  congr 1
  funext a
  refine Fin.ext ?_
  match a with
  | ⟨0, _⟩ =>
    show gather_S50257x1024_S4x4096x1_S4x4096x1024_2_0_n_n_0_2_11024.start j idx 0
        + gather_S50257x1024_S4x4096x1_S4x4096x1024_2_0_n_n_0_2_11024.batchCoord j 0
        + gather_S50257x1024_S4x4096x1_S4x4096x1024_2_0_n_n_0_2_11024.offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S50257x1024_S4x4096x1_S4x4096x1024_2_0_n_n_0_2_11024.startIndexMap
      from List.mem_singleton.mpr rfl)]
    have hsi : gather_S50257x1024_S4x4096x1_S4x4096x1024_2_0_n_n_0_2_11024.siIdx j
        ⟨List.idxOf (0 : Fin 2) gather_S50257x1024_S4x4096x1_S4x4096x1024_2_0_n_n_0_2_11024.startIndexMap,
          List.idxOf_lt_length_iff.2 (List.mem_singleton.mpr rfl)⟩
        = ix3 (Cert.Spec.coord0 j) (Cert.Spec.coord1 j) (0 : Fin 1) := by
      funext b; refine Fin.ext ?_
      match b with
      | ⟨0, _⟩ => rfl
      | ⟨1, _⟩ => rfl
      | ⟨2, _⟩ => rfl
    rw [hsi]
    rfl
  | ⟨1, _⟩ =>
    show gather_S50257x1024_S4x4096x1_S4x4096x1024_2_0_n_n_0_2_11024.start j idx 1
        + gather_S50257x1024_S4x4096x1_S4x4096x1024_2_0_n_n_0_2_11024.batchCoord j 1
        + gather_S50257x1024_S4x4096x1_S4x4096x1024_2_0_n_n_0_2_11024.offCoord j 1 = _
    rw [GatherDims.batchCoord_eq_zero _ _ _ List.not_mem_nil]
    have hs : gather_S50257x1024_S4x4096x1_S4x4096x1024_2_0_n_n_0_2_11024.start j idx 1 = 0 := rfl
    rw [hs]
    simp only [Nat.zero_add, Nat.add_zero]
    rfl

/-- For token words in range the reference's result is the lookup: no word is moved, every word is valid, and the gather's clamp of a start index is the word's own row. -/
theorem refTerm_eq (ids : IVec S4x4096 32) (w : FVec F S50257x1024 .f32) (h : Cert.Spec.InRange ids) :
    refTerm (F := F) ids w = Cert.Spec.gathered ids w := by
  funext j
  unfold refTerm
  rw [select_apply]
  have hv : broadcastInDim S4x4096x1024 ![0, 1] Facts₀.bcast_S4x4096_S4x4096x1024_0_1 (validIds ids) j = 1#1 :=
    validIds_apply ids h _
  rw [hv, select_one, gather_apply]
  have hw : startIdx ids (ix3 (Cert.Spec.coord0 j) (Cert.Spec.coord1 j) (0 : Fin 1))
      = Cert.Spec.wordAt ids (Cert.Spec.coord0 j) (Cert.Spec.coord1 j) := by
    unfold startIdx Cert.Spec.wordAt
    rw [movedIds_eq ids h]
    refine congrArg ids ?_
    funext a
    match a with
    | ⟨0, _⟩ => rfl
    | ⟨1, _⟩ => rfl
  rw [hw]
  rfl

end Cert.ReferenceIdeal.RefValue
end
-- ==== Proof.BBody.lean ====
import proofs.«419301_j71760313581990_2_alg».proof.Proof.Gen.Kernel.Launch
import proofs.«419301_j71760313581990_2_alg».proof.Proof.Gen.Kernel.Skeleton
import Idealize.ShloMosaic.Lib.Transfers
import Idealize.ShloMosaic.Lib.Writes
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! The body of the lookup kernel at one grid point, on symbolic operands: eight token words are read from the clipped
    token table; for each, the row it names is copied from the embedding table into one row of the output block, all
    eight copies issued before any is waited for, each on a cell of its own, and all eight waited for before the body
    returns. The embedding table is held as one read share per cell, so that two copies may read the same row at once. -/

/-- The token table as the body is handed it: the whole SMEM buffer of clipped words. -/
abbrev tbM : Memref sig .tc .smem S16384 .i32 := Memref.whole main_v1
abbrev htbM : tbM.IsWhole := Memref.isWhole_whole _
/-- The embedding table, left in HBM, whole. -/
abbrev hbM : Memref sig .tc .hbm S50257x1024 .f32 := Memref.whole main_arg1
abbrev hhbM : hbM.IsWhole := Memref.isWhole_whole _

abbrev MBuf (c : Dev nD) {sp : Space} {S : Shape} {e : EltTy} (M : Memref sig .tc sp S e) : Type := Buf (Elt F) (M.view.loc (c : Thread nD τ))
/-- The token table held at the half share the region lends the body. -/
abbrev tbPt (c : Dev nD) (f : MBuf (F := F) c tbM) : sProp 𝕄 := tbM.view.loc (c : Thread nD τ) ↦{fullShare.right} f
/-- The embedding table held at the read share of cell k. -/
abbrev hbTok (c : Dev nD) (k : ℕ) (f : MBuf (F := F) c hbM) : sProp 𝕄 := hbM.view.loc (c : Thread nD τ) ↦{Transfers.shareTokN fullShare k} f

/-- The word the body loads from the token table at offset `off`. -/
abbrev wordAt (c : Dev nD) (xt : MBuf (F := F) c tbM) (off : Fin 1 → Nat) (h : ∀ a, off a + S1.size a ≤ S16384.size a) : Elt F .i32 :=
  tbM.view.readAt (Elt F) (Rect.unit (s := S16384) off S1.size h).toLoadRect xt (Shape.Idx.first (numel1_S1.symm ▸ Nat.one_pos))

set_option sl_exec.dmaWindow true in
set_option sl_exec.dmaWindowSet true in
set_option maxHeartbeats 4000000 in
noncomputable def kernelRun (c : Dev nD) (i : grid0.Coords) (arg3 : Memref sig .tc .vmem S8x1024 .f32) (harg3 : arg3.IsWhole)
    (xt : MBuf (F := F) c tbM) (fh : MBuf (F := F) c hbM)
    (hw1 : k0_chk1 (wordAt c xt (k0_off1 i) (k0_off1_inb i))) (hw2 : k0_chk2 (wordAt c xt (k0_off3 i) (k0_off3_inb i)))
    (hw3 : k0_chk3 (wordAt c xt (k0_off5 i) (k0_off5_inb i))) (hw4 : k0_chk4 (wordAt c xt (k0_off7 i) (k0_off7_inb i)))
    (hw5 : k0_chk5 (wordAt c xt (k0_off9 i) (k0_off9_inb i))) (hw6 : k0_chk6 (wordAt c xt (k0_off11 i) (k0_off11_inb i)))
    (hw7 : k0_chk7 (wordAt c xt (k0_off13 i) (k0_off13_inb i))) (hw8 : k0_chk8 (wordAt c xt (k0_off15 i) (k0_off15_inb i))) :
    { L : List (View.Piece (Elt F) S8x1024 .f32) //
      ∀ (W : Waits sig Unit) (K : PUnit → sProp 𝕄),
        iprop((∃ d, owns (c : Thread nD τ) arg3 fullShare d) ∗ tbPt c xt
            ∗ hbTok c 2 fh ∗ hbTok c 3 fh ∗ hbTok c 4 fh ∗ hbTok c 5 fh ∗ hbTok c 6 fh ∗ hbTok c 7 fh ∗ hbTok c 8 fh ∗ hbTok c 9 fh
            ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0
            ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0
            ∗ owes (c : Thread nD τ) 0 W
            ∗ (iprop((∃ f, arg3.view.loc (c : Thread nD τ) ↦[arg3.view.set]{fullShare} arg3.view.writes (Elt F) f L) ∗ tbPt c xt
                ∗ hbTok c 2 fh ∗ hbTok c 3 fh ∗ hbTok c 4 fh ∗ hbTok c 5 fh ∗ hbTok c 6 fh ∗ hbTok c 7 fh ∗ hbTok c 8 fh ∗ hbTok c 9 fh
                ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0
                ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0
                ∗ (∃ W', owes (c : Thread nD τ) 0 W')) -∗ K ⟨⟩))
          ⊢ wp frame (wpE (defs₀ (F := F)) Variants.none c none) Set.univ (cc0__gather_kernel i tbM htbM hbM hhbM arg3 harg3 cc0_scratch0) K } := by
  refine ⟨?_, fun W K => ?run⟩
  case run =>
    simp only [cc0__gather_kernel_eq_skeleton]; unfold cc0__gather_kernel_skel
    simp only [k0_part1_eq_skeleton, k0_part2_eq_skeleton, k0_part3_eq_skeleton]
    unfold owns
    iintro ⟨⟨%d1, %f1, -, H1⟩, HT, Hh2, Hh3, Hh4, Hh5, Hh6, Hh7, Hh8, Hh9, Hq2, Hq3, Hq4, Hq5, Hq6, Hq7, Hq8, Hq9, HW, Hk⟩
    sl_exec (disch := first | sl_exact hw1 | sl_exact hw2 | sl_exact hw3 | sl_exact hw4 | sl_exact hw5 | sl_exact hw6 | sl_exact hw7 | sl_exact hw8)
    sl_step
    iapply Hk
    isplitl [H1]; · iexists _; iexact H1
    isplitl [HT]; · iexact HT
    isplitl [Hh2]; · iexact Hh2
    isplitl [Hh3]; · iexact Hh3
    isplitl [Hh4]; · iexact Hh4
    isplitl [Hh5]; · iexact Hh5
    isplitl [Hh6]; · iexact Hh6
    isplitl [Hh7]; · iexact Hh7
    isplitl [Hh8]; · iexact Hh8
    isplitl [Hh9]; · iexact Hh9
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    iexists _; iexact HW

/-- One staging buffer of the output window, through which the block's contents are stated. -/
abbrev VO : View sig .tc .vmem S8x1024 .f32 := (Memref.whole cc0_stg0_0 : Memref sig .tc .vmem S8x1024 .f32).view

/-- The eight row pieces tile the block, so they cover it. -/
theorem cover (c : Dev nD) (i : grid0.Coords) (arg3 : Memref sig .tc .vmem S8x1024 .f32) (harg3 : arg3.IsWhole)
    (xt : MBuf (F := F) c tbM) (fh : MBuf (F := F) c hbM)
    (hw1 : k0_chk1 (wordAt c xt (k0_off1 i) (k0_off1_inb i))) (hw2 : k0_chk2 (wordAt c xt (k0_off3 i) (k0_off3_inb i)))
    (hw3 : k0_chk3 (wordAt c xt (k0_off5 i) (k0_off5_inb i))) (hw4 : k0_chk4 (wordAt c xt (k0_off7 i) (k0_off7_inb i)))
    (hw5 : k0_chk5 (wordAt c xt (k0_off9 i) (k0_off9_inb i))) (hw6 : k0_chk6 (wordAt c xt (k0_off11 i) (k0_off11_inb i)))
    (hw7 : k0_chk7 (wordAt c xt (k0_off13 i) (k0_off13_inb i))) (hw8 : k0_chk8 (wordAt c xt (k0_off15 i) (k0_off15_inb i)))
    (y : S8x1024.Idx) :
    ∃ pc ∈ (kernelRun c i arg3 harg3 xt fh hw1 hw2 hw3 hw4 hw5 hw6 hw7 hw8).1, y ∈ pc.1.set :=
  View.cover_of_tiledL (kernelRun c i arg3 harg3 xt fh hw1 hw2 hw3 hw4 hw5 hw6 hw7 hw8).1 S1x1024.size (by sl_kernel_rfl) y

/-- What the body leaves in the output block: its eight row pieces read back. -/
def outOf (c : Dev nD) (i : grid0.Coords) (arg3 : Memref sig .tc .vmem S8x1024 .f32) (harg3 : arg3.IsWhole)
    (xt : MBuf (F := F) c tbM) (fh : MBuf (F := F) c hbM)
    (hw1 : k0_chk1 (wordAt c xt (k0_off1 i) (k0_off1_inb i))) (hw2 : k0_chk2 (wordAt c xt (k0_off3 i) (k0_off3_inb i)))
    (hw3 : k0_chk3 (wordAt c xt (k0_off5 i) (k0_off5_inb i))) (hw4 : k0_chk4 (wordAt c xt (k0_off7 i) (k0_off7_inb i)))
    (hw5 : k0_chk5 (wordAt c xt (k0_off9 i) (k0_off9_inb i))) (hw6 : k0_chk6 (wordAt c xt (k0_off11 i) (k0_off11_inb i)))
    (hw7 : k0_chk7 (wordAt c xt (k0_off13 i) (k0_off13_inb i))) (hw8 : k0_chk8 (wordAt c xt (k0_off15 i) (k0_off15_inb i))) :
    Vec F S8x1024 .f32 :=
  VO.read (Elt F) (VO.writes (Elt F) VO.junk (kernelRun c i arg3 harg3 xt fh hw1 hw2 hw3 hw4 hw5 hw6 hw7 hw8).1)

end Cert.Kernel.Hand

end
-- ==== Proof.BKit.lean ====
/-
  The program around its one kernel region, and what the region is handed: the arrays as the region finds them (the
  contents after the host operations that come before it: the token ids flattened and clipped), the clipped token table
  as the region's prefetched table, the embedding table as the one array the body reads by copies of its own, the body's
  eight cells, and the one host operation after the region (a reshape of the result) seen to touch none of these.
-/
import proofs.«419301_j71760313581990_2_alg».proof.Proof.BBody
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The program around the region -/

/-- Core `c`'s buffer contents when the region is entered: after the host operations before it. -/
abbrev V0 (c : Dev nD) : Valuation τ sig (Elt F) := StableHlo.after (List.flatten [hostOps0, hostOps0_1]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is host operations, the region, one more host operation: it reduces to the region continued by the last. -/
theorem hmain (𝒱₀ : Variants) : Pipeline.HMainPK (Ix := Unit) (Name := ℕ) (U := Pipeline.UD sig nD τ) (Lvl := ℕ) pcfgs 0 defs₀ 𝒱₀ m (main (F := F)) (V m)
      (fun _ => Pipeline.chain [StableHlo.seq hostOps1]) :=
  Pipeline.hmainP_around pcfgs 0 defs₀ 𝒱₀ m main [hostOps0, hostOps0_1] [hostOps1]
    (by simp only [List.Forall]; exact ⟨hostOps0_sub, hostOps0_1_sub⟩)
    (by simp only [List.Forall]; exact ⟨hostOps0_fresh, hostOps0_1_fresh⟩) main_chain

/-- The array the body reads by its own copies: the embedding table. -/
def H0 : Finset (Ref sig .tc) := {main_arg1}
theorem H0_sub : H0 ⊆ Pipeline.restRefsP sig pre0 spec0 := by decide

/-- The reshape after the region touches neither the token table nor the embedding table. -/
theorem sfx_but : ∀ ops ∈ ([hostOps1] : List (List (HloOp τ sig (Elt F)))), ∀ op ∈ ops,
    op.bufs ⊆ Pipeline.tailRefsBut sig pre0 spec0 H0 := by
  intro ops hops op hop
  simp only [List.mem_cons, List.mem_nil_iff, or_false] at hops
  subst hops
  have hop' := hop
  simp only [hostOps1, List.mem_cons, List.mem_nil_iff, or_false] at hop'
  refine Pipeline.sub_tailRefsBut pre0 spec0 H0 op ((List.forall_iff_forall_mem.mp hostOps1_sub) op hop) ?_ ?_
  · subst hop'
    intro k; fin_cases k
    simp only [StableHlo.reshape_bufs, Finset.mem_insert, Finset.mem_singleton, not_or]
    and_intros <;> exact StableHlo.devRef_ne_of_ne (by decide)
  · subst hop'
    intro b hb
    simp only [H0, Finset.mem_singleton] at hb
    subst hb
    simp only [StableHlo.reshape_bufs, Finset.mem_insert, Finset.mem_singleton, not_or]
    and_intros <;> exact StableHlo.devRef_ne_of_ne (by decide)

/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- And it writes its own result only, not the region's result array. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  subst hops
  simp only [hostOps1, List.mem_cons, List.mem_nil_iff, or_false] at hop
  subst hop
  intro w; fin_cases w
  simp only [StableHlo.reshape_writes, Finset.mem_singleton]
  exact StableHlo.devRef_ne_of_ne (by decide)

theorem V_main_arg0 (c : Dev nD) : V m c main_arg0 = m ((c : Thread nD τ).loc main_arg0) := by
  show StableHlo.after (List.flatten [hostOps0, hostOps0_1]) (fun b => m (c, b)) (Proc.devRef .tc main_arg0) = _
  rw [StableHlo.after_of_forall_not_mem]
  simp only [hostOps0, hostOps0_1, List.flatten_cons, List.flatten_nil, List.append_nil, List.cons_append, List.nil_append]
  intro op hop
  simp only [List.mem_cons, List.mem_nil_iff, or_false] at hop
  rcases hop with rfl | rfl | rfl | rfl | rfl | rfl | rfl | rfl | rfl <;>
    simp only [StableHlo.nullary_writes, StableHlo.unary_writes, StableHlo.binary_writes, StableHlo.reshape_writes, Finset.mem_singleton] <;>
    exact StableHlo.devRef_ne_of_ne (by decide)

theorem V_main_arg1 (c : Dev nD) : V m c main_arg1 = m ((c : Thread nD τ).loc main_arg1) := by
  show StableHlo.after (List.flatten [hostOps0, hostOps0_1]) (fun b => m (c, b)) (Proc.devRef .tc main_arg1) = _
  rw [StableHlo.after_of_forall_not_mem]
  simp only [hostOps0, hostOps0_1, List.flatten_cons, List.flatten_nil, List.append_nil, List.cons_append, List.nil_append]
  intro op hop
  simp only [List.mem_cons, List.mem_nil_iff, or_false] at hop
  rcases hop with rfl | rfl | rfl | rfl | rfl | rfl | rfl | rfl | rfl <;>
    simp only [StableHlo.nullary_writes, StableHlo.unary_writes, StableHlo.binary_writes, StableHlo.reshape_writes, Finset.mem_singleton] <;>
    exact StableHlo.devRef_ne_of_ne (by decide)

/-! ## The prefetched table -/

/-- The token table's contents when the region is entered (there is one device). -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
/-- Those contents as admissible contents (the pipeline's side condition of them is empty), and the pipeline at them. -/
abbrev adm : (pcfg0 (F := F)).Adm := ⟨tbl m, trivial⟩
abbrev cfgM : Pipeline.Cfg sig Λ₀ := cfg0 (adm m)

/-- The table's half share, as the body's run takes it. -/
theorem PhiT_eq (c : Dev nD) : (Pipeline.ΦT pre0 (tbl m) c : sProp 𝕄) = tbPt c (tbl m 0) := by
  unfold Pipeline.ΦT Pipeline.prefHeld
  rw [show (Finset.univ : Finset (Fin 1)) = {(0 : Fin 1)} from by decide, bigSep_singleton]
  rfl

/-! ## The body's own cells and the array it copies from -/

abbrev osem0 : Fin 8 → SemLoc sig := fun j =>
  (![SemLoc.dma 2, SemLoc.dma 3, SemLoc.dma 4, SemLoc.dma 5, SemLoc.dma 6, SemLoc.dma 7, SemLoc.dma 8, SemLoc.dma 9] : Fin 8 → SemLoc sig) j
theorem ownSemFacts0 : Pipeline.OwnSemFacts spec0 osem0 := by decide

theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0
          ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0) := by
  rw [Pipeline.ownSems0_eq_of_list c osem0 [0, 1, 2, 3, 4, 5, 6, 7] (by decide) (by decide)]; rfl

/-- The embedding table held whole at the full share. -/
abbrev hbPt (c : Dev nD) (f : MBuf (F := F) c hbM) : sProp 𝕄 := hbM.view.loc (c : Thread nD τ) ↦{fullShare} f

theorem hbmPts0_eq (c : Dev nD) :
    (bigSep H0 (fun b => ((c : Thread nD τ).loc b) ↦{fullShare} V m c b) : sProp 𝕄) = hbPt c (V m c main_arg1) := by
  rw [BI.bigSep_eq_bigSepL_of_eq [main_arg1] (by decide) (by decide)]; rfl

/-- The invariant of a body with copies of its own, conjunct by conjunct: the generator register at some state, the
    eight cells at zero, the embedding table at its launch contents (the kernel names no scratch buffer). -/
theorem PhiD0_eq (c : Dev nD) :
    (Pipeline.ΦD osem0 spec0 H0 (V m) c : sProp 𝕄)
      = iprop(emp ∗ (∃ r, prngReg c r)
          ∗ iprop(semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0
            ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0)
          ∗ hbPt c (V m c main_arg1)) := by
  rw [Pipeline.ΦD_eq, scopedRest0_eq, ownSems00_eq, hbmPts0_eq]
  rfl

end Cert.Kernel.Hand

end
-- ==== Proof.BData.lean ====
/-
  The proof data of the lookup kernel's one region, the body's obligation at every grid point, and the run of the
  whole program. After the body at point t the output block holds the eight rows its copies landed; the region's
  invariant is the eight cells at zero, the embedding table at its launch contents and the token table's half share.
  At each point the embedding table's full share is split into one read share per cell for the body's run and
  joined again afterwards.
-/
import proofs.«419301_j71760313581990_2_alg».proof.Proof.BKit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The output window's current staging memref at point `t`, as the pipeline passes it to the body, and its wholeness. -/
abbrev ms (t : Fin (cfgM m).N) : Memref sig .tc .vmem S8x1024 .f32 := spec0_0.stage ((cfgM m).slots t 0)
abbrev hs (t : Fin (cfgM m).N) : (ms m t).IsWhole := hstage0_0 (((cfgM m).slots t 0).cast nbuf0_0)

/-- The kernel body at point `t`, on what the pipeline calls it with. -/
abbrev bodyAt (t : Fin (cfgM m).N) : Prog (TpuEff nD τ sig (Elt F) Λ₀ .tc) PUnit :=
  cc0__gather_kernel (grid0.coords t) (Memref.whole main_v1) (Memref.isWhole_whole _) (Memref.whole main_arg1) (Memref.isWhole_whole _)
    (spec0_0.stage ((cfgM m).slots t 0)) (hstage0_0 (((cfgM m).slots t 0).cast nbuf0_0)) cc0_scratch0

/-- Every word the body reads from the token table, at every point, names a row of the embedding table: the side
    conditions the body assumes. -/
def Hyps : Prop :=
  ∀ (c : Dev nD) (t : Fin (cfgM m).N),
    k0_chk1 (wordAt c (tbl m 0) (k0_off1 (grid0.coords t)) (k0_off1_inb (grid0.coords t)))
    ∧ k0_chk2 (wordAt c (tbl m 0) (k0_off3 (grid0.coords t)) (k0_off3_inb (grid0.coords t)))
    ∧ k0_chk3 (wordAt c (tbl m 0) (k0_off5 (grid0.coords t)) (k0_off5_inb (grid0.coords t)))
    ∧ k0_chk4 (wordAt c (tbl m 0) (k0_off7 (grid0.coords t)) (k0_off7_inb (grid0.coords t)))
    ∧ k0_chk5 (wordAt c (tbl m 0) (k0_off9 (grid0.coords t)) (k0_off9_inb (grid0.coords t)))
    ∧ k0_chk6 (wordAt c (tbl m 0) (k0_off11 (grid0.coords t)) (k0_off11_inb (grid0.coords t)))
    ∧ k0_chk7 (wordAt c (tbl m 0) (k0_off13 (grid0.coords t)) (k0_off13_inb (grid0.coords t)))
    ∧ k0_chk8 (wordAt c (tbl m 0) (k0_off15 (grid0.coords t)) (k0_off15_inb (grid0.coords t)))

/-- What the output block holds after the body at point `t`. -/
def outsAt (hH : Hyps m) (c : Dev nD) (t : Fin (cfgM m).N) : Vec F S8x1024 .f32 :=
  outOf c (grid0.coords t) (ms m t) (hs m t) (tbl m 0) (V m c main_arg1)
    (hH c t).1 (hH c t).2.1 (hH c t).2.2.1 (hH c t).2.2.2.1 (hH c t).2.2.2.2.1 (hH c t).2.2.2.2.2.1 (hH c t).2.2.2.2.2.2.1 (hH c t).2.2.2.2.2.2.2

/-- The proof data of the region on core `c`. -/
def dats (hH : Hyps m) (_ : Fin 1) (c : Dev nD) : Dat τ (Elt F) Unit ℕ (Pipeline.UD sig nD τ) ℕ (cfgM m) c where
  A w := V m c (Pipeline.arrRef spec0 w)
  after w t := match w with
    | ⟨0, _⟩ => outsAt m hH c t
  Φ _ := iprop(Pipeline.ΦD osem0 spec0 H0 (V m) c ∗ Pipeline.ΦT pre0 (tbl m) c)
  q _ := fullShare
  owed _ := 0

theorem A_eq (hH : Hyps m) (c : Dev nD) (w : Fin (cfgM m).W) : (dats m hH 0 c).A w = V m c (Pipeline.arrRef spec0 w) := by
  dsimp only [dats]

theorem after0 (hH : Hyps m) (c : Dev nD) (t : Fin (cfgM m).N) : (dats m hH 0 c).after 0 t = outsAt m hH c t := by
  dsimp only [dats]; try rfl

/-- The embedding table at the full share is what remains after ten read shares are split off, and the ten. -/
theorem hb_toks (c : Dev nD) (f : MBuf (F := F) c hbM) :
    (hbPt c f : sProp 𝕄) ⊣⊢ iprop((hbM.view.loc (c : Thread nD τ) ↦{Transfers.shareDrop fullShare 10} f)
      ∗ hbTok c 0 f ∗ hbTok c 1 f ∗ hbTok c 2 f ∗ hbTok c 3 f ∗ hbTok c 4 f ∗ hbTok c 5 f ∗ hbTok c 6 f ∗ hbTok c 7 f ∗ hbTok c 8 f ∗ hbTok c 9 f) := by
  have h := Transfers.pointsTo_toks_range (Ix := Unit) (Name := ℕ) (U := Pipeline.UD sig nD τ) (Lvl := ℕ)
    (ℓ := hbM.view.loc (c : Thread nD τ)) (S := Finset.univ) (f := f) fullShare 10
  rw [BI.bigSep_eq_bigSepL_of_eq [0, 1, 2, 3, 4, 5, 6, 7, 8, 9] (by decide) (by decide)] at h
  exact h

/-! ## The body obligation, at a generic point -/

def bodyPre (hH : Hyps m) (c : Dev nD) (t : Fin (cfgM m).N) : sProp 𝕄 :=
  iprop((dats m hH 0 c).Φ t.castSucc ∗ (dats m hH 0 c).owesAt () t.castSucc
    ∗ (∃ d, owns (c : Thread nD τ) (ms m t) fullShare ((dats m hH 0 c).before 0 t d)))

def bodyPost (hH : Hyps m) (c : Dev nD) (t : Fin (cfgM m).N) : sProp 𝕄 :=
  iprop((dats m hH 0 c).Φ t.succ ∗ (dats m hH 0 c).owesAt () t.succ
    ∗ owns (c : Thread nD τ) (ms m t) fullShare ((dats m hH 0 c).after 0 t))

theorem sound_body (hH : Hyps m) (c : Dev nD) (t : Fin (cfgM m).N) :
    bodyPre m hH c t ⊢ wp frame (wpE (defs₀ (F := F)) Variants.none c none) Set.univ (bodyAt m t) (fun _ => bodyPost m hH c t) := by
  unfold bodyPre bodyPost bodyAt
  rw [show (dats m hH 0 c).Φ t.succ = (dats m hH 0 c).Φ t.castSucc from rfl, after0]
  rw [show (dats m hH 0 c).Φ t.castSucc = iprop(Pipeline.ΦD osem0 spec0 H0 (V m) c ∗ Pipeline.ΦT pre0 (tbl m) c) from rfl, PhiD0_eq, PhiT_eq]
  unfold Dat.owesAt Pipeline.owesWithin
  rw [show (dats m hH 0 c).owed t.castSucc = 0 from rfl, show (dats m hH 0 c).owed t.succ = 0 from rfl]
  unfold outsAt
  unfold outOf
  iintro ⟨⟨⟨-, Hg, ⟨Hq2, Hq3, Hq4, Hq5, Hq6, Hq7, Hq8, Hq9⟩, Hh⟩, HT⟩, ⟨%W, -, HW⟩, ⟨%d0, H0⟩⟩
  ihave Hh' := (hb_toks c (V m c main_arg1)).1 $$ Hh
  icases Hh' with ⟨Hr, Hh0, Hh1, Hh2, Hh3, Hh4, Hh5, Hh6, Hh7, Hh8, Hh9⟩
  iapply ((kernelRun c (grid0.coords t) (ms m t) (hs m t) (tbl m 0) (V m c main_arg1)
    (hH c t).1 (hH c t).2.1 (hH c t).2.2.1 (hH c t).2.2.2.1 (hH c t).2.2.2.2.1 (hH c t).2.2.2.2.2.1 (hH c t).2.2.2.2.2.2.1 (hH c t).2.2.2.2.2.2.2).2 W _)
  isplitl [H0]; · iexists _; iexact H0
  isplitl [HT]; · iexact HT
  isplitl [Hh2]; · iexact Hh2
  isplitl [Hh3]; · iexact Hh3
  isplitl [Hh4]; · iexact Hh4
  isplitl [Hh5]; · iexact Hh5
  isplitl [Hh6]; · iexact Hh6
  isplitl [Hh7]; · iexact Hh7
  isplitl [Hh8]; · iexact Hh8
  isplitl [Hh9]; · iexact Hh9
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [HW]; · iexact HW
  iintro ⟨⟨%e1, H0⟩, HT, Hh2, Hh3, Hh4, Hh5, Hh6, Hh7, Hh8, Hh9, Hq2, Hq3, Hq4, Hq5, Hq6, Hq7, Hq8, Hq9, ⟨%W', HW'⟩⟩
  ihave Hh := (hb_toks c (V m c main_arg1)).2 $$ [Hr Hh0 Hh1 Hh2 Hh3 Hh4 Hh5 Hh6 Hh7 Hh8 Hh9]
  · isplitl [Hr]; · iexact Hr
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    isplitl [Hh6]; · iexact Hh6
    isplitl [Hh7]; · iexact Hh7
    isplitl [Hh8]; · iexact Hh8
    iexact Hh9
  isplitl [Hg Hq2 Hq3 Hq4 Hq5 Hq6 Hq7 Hq8 Hq9 Hh HT]
  · isplitl [Hg Hq2 Hq3 Hq4 Hq5 Hq6 Hq7 Hq8 Hq9 Hh]
    · isplitr; · iempintro
      isplitl [Hg]; · iexact Hg
      isplitl [Hq2 Hq3 Hq4 Hq5 Hq6 Hq7 Hq8 Hq9]
      · isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hq8]; · iexact Hq8
        iexact Hq9
      iexact Hh
    iexact HT
  isplitl [HW']
  · iexists W'; isplitr; · ipureintro; exact fun _ _ => Or.inl trivial
    iexact HW'
  unfold owns; iexists _; isplitr
  swap; · iexact H0
  ipureintro; exact View.read_writes_of_cover _ _ _ _ _ (cover c _ _ _ _ _ _ _ _ _ _ _ _ _)

/-- The library's body obligation, at every point. -/
theorem body_obligation (hH : Hyps m) (c : Dev nD) : BodyObligation (dats (F := F) m hH 0 c) (defs₀ (F := F)) Variants.none () Set.univ := fun t => by
  rw [bigSep_W0, bigSep_W0]
  exact sound_body m hH c t

/-! ## The run -/

set_option backward.isDefEq.respectTransparency.types false in
/-- From any memory with zero counters every weakly fair execution of the program terminates without a fault, the
    region's result array at what the library computes from the proof data and every other unscoped buffer at its
    contents after the reshape that follows the region. -/
theorem run_main (hH : Hyps m) : θ_run defs (onTc (τ := τ) (main (F := F))) (s₀ m ρ)
    (Pipeline.FramePost (Pipeline.pin pcfgs fun _ => adm m) (dats m hH) 0 (Pipeline.afterTail pcfgs (fun _ => adm m) (dats m hH) 0 (V0 m) [hostOps1])) :=
  Pipeline.θ_run_frameP_dma_around pcfgs (fun _ => adm m) (dats m hH) (0 : Fin 1) launch0 osem0 defs₀ Variants.none ownSemFacts0 H0 H0_sub m ρ main
    (hbody := fun c => (body_obligation m hH c).loose) (hshare := fun c => (dats m hH 0 c).share_full fun _ => rfl)
    (howed := fun _ _ => rfl) (V₀ := V0 m) (opss := [hostOps1]) (hsub := sfx_but) (hfresh := sfx_fresh) (hkeep := sfx_keeps)
    (hmain := hmain m Variants.none) (hA := A_eq m hH) (hpf := V_pre m)
    (hin := fun _ => .rfl) (hout := fun c => (show iprop(Pipeline.ΦD osem0 spec0 H0 (V m) c ∗ Pipeline.ΦT pre0 (tbl m) c) ⊢ Pipeline.ΦD osem0 spec0 H0 (V m) c from by
      iintro ⟨H, -⟩; iexact H))

end Cert.Kernel.Hand

end
-- ==== Proof.BHost.lean ====
import proofs.«419301_j71760313581990_2_alg».proof.Proof.BKit
import proofs.«419301_j71760313581990_2_alg».proof.Proof.Spec
import proofs.«419301_j71760313581990_2_alg».proof.Proof.LibCast
import Idealize.ShloMosaic.Lib.StableHlo.Run
import Idealize.ShloMosaic.Lib.ValueIdx
import Idealize.ShloMosaic.Lib.Pipeline.Value
noncomputable section
namespace Cert.Kernel.Hand
open Cert.Kernel Cert.Kernel.Gen Idealize.ShloMosaic Idealize.ShloMosaic.TcCoe Idealize.ShloMosaic.ValueIdx Idealize.SL.Sem
variable {F : FTy → Type} [FloatOps F] (m : (ℓ : Loc nD τ sig) → Buf (Elt F) ℓ)

/-! The program's host side, before the region: the token ids are flattened to 16384 words and each word is clipped
    into [0, 50256]; the clipped words are the table the region is handed. Every word of that table is therefore a row
    number of the embedding table, which is all the body's side conditions ask of a word it loads. -/

/-- The token table when the region is entered, as one term over the launch contents: the token ids flattened, then
    bounded below by 0 and above by 50256, elementwise. -/
theorem tbl_eq :
    (tbl m 0 : S16384.Idx → BitVec 32)
      = minsi (broadcastInDim S16384 ![] bcast_S_S16384 (constantI S_ 32 50256#32))
          (maxsi (broadcastInDim S16384 ![] bcast_S_S16384 (constantI S_ 32 0#32))
            (shapeCast S16384 (m (((0 : Dev nD).tc : Thread nD τ).loc main_arg0) : S4x4096.Idx → BitVec 32) shapeCasts_S4x4096_S16384)) := by
  show (StableHlo.after (List.flatten [hostOps0, hostOps0_1]) (fun b => m ((0 : Dev nD), b)) (Proc.devRef .tc main_v1) : S16384.Idx → BitVec 32) = _
  simp only [hostOps0, hostOps0_1, List.flatten_cons, List.flatten_nil, List.append_nil, List.cons_append, List.nil_append]
  after_results
  -- contents carried to a buffer's own type and back are the contents
  simp only [StableHlo.TRef.ofBuf_toBuf]
  rfl

/-- The token table the region is handed, read at position n: the clip of the token word at (n / 4096, n % 4096). -/
theorem tbl_apply (n : Fin 16384) :
    (tbl m 0 : S16384.Idx → BitVec 32) (ix1 n) = Cert.Spec.clipWord ((m (((0 : Dev nD).tc : Thread nD τ).loc main_arg0) : S4x4096.Idx → BitVec 32) (ix2 (⟨n.val / 4096, by omega⟩ : Fin 4) (⟨n.val % 4096, by omega⟩ : Fin 4096))) := by
  rw [tbl_eq]
  dsimp only [minsi, maxsi, broadcastInDim, constantI]
  -- position n of the flattened array is row n / 4096, column n % 4096 of the [4 × 4096] array
  rw [shapeCast_apply _ _ (ix1 n) (ix2 (⟨n.val / 4096, by omega⟩ : Fin 4) (⟨n.val % 4096, by omega⟩ : Fin 4096))
    (by rw [Shape.rowMajor_val_two, Shape.rowMajor_val_one]
        show n.val / 4096 * 4096 + n.val % 4096 = n.val
        omega)]
  rfl

/-- Every word of the token table is a row number of the embedding table. -/
theorem tbl_lt (x : S16384.Idx) : ((tbl m 0 : S16384.Idx → BitVec 32) x).toNat < 50257 := by
  have e : (tbl m 0 : S16384.Idx → BitVec 32) x = _ :=
    (congrArg (tbl m 0 : S16384.Idx → BitVec 32) (eq_ix1 (n := 16384) x)).trans (tbl_apply m (x 0))
  exact lt_of_eq_of_lt (congrArg BitVec.toNat e) (Cert.Spec.clipWord_toNat_lt _)

/-- An offset at which one word fits inside the 16384 is a position of the table. -/
theorem off_lt (off : Fin 1 → Nat) (h : ∀ a, off a + S1.size a ≤ S16384.size a) : off 0 < 16384 := by
  have := h 0
  simp [S1, S16384] at this
  omega

/-- A load of one word through the whole table reads the table's contents at the word's position, whatever the
    contents are. -/
theorem wordAt_var (c : Dev nD) (xt : MBuf (F := F) c tbM) (off : Fin 1 → Nat) (h : ∀ a, off a + S1.size a ≤ S16384.size a) :
    wordAt c xt off h = (xt : S16384.Idx → BitVec 32) (ix1 ⟨off 0, off_lt off h⟩) := by
  show (xt : S16384.Idx → BitVec 32) _ = _
  refine congrArg (xt : S16384.Idx → BitVec 32) ?_
  funext a
  apply Fin.ext
  fin_cases a
  show off 0 + 1 * 0 = off 0
  omega

/-- A word the body loads from the token table is one of the table's words (so a row number): -/
theorem wordAt_lt (c : Dev nD) (off : Fin 1 → Nat) (h : ∀ a, off a + S1.size a ≤ S16384.size a) : (wordAt c (tbl m 0) off h).toNat < 50257 := by
  exact lt_of_eq_of_lt (congrArg BitVec.toNat (wordAt_var c (tbl m 0) off h)) (tbl_lt m _)

/-- and which one: the word at position off 0. -/
theorem wordAt_eq (c : Dev nD) (off : Fin 1 → Nat) (h : ∀ a, off a + S1.size a ≤ S16384.size a) : wordAt c (tbl m 0) off h = (tbl m 0 : S16384.Idx → BitVec 32) (ix1 ⟨off 0, by have := h 0; simp [S1, S16384] at this; omega⟩) :=
  wordAt_var c (tbl m 0) off h

/-- One row of the embedding table, at a row number, lies inside the table. -/
theorem row_inb (v : BitVec 32) (h : v.toNat < 50257) :
    ∀ a : Fin 2, (![v.toNat, 0] : Fin 2 → Nat) a + S1x1024.size a ≤ S50257x1024.size a := by
  intro a
  fin_cases a <;> simp [S1x1024, S50257x1024] <;> omega

/-- The side conditions the body assumes of a loaded word hold of any row number (eight lemmas, one per check): -/
theorem chk1_of_lt (v : BitVec 32) (h : v.toNat < 50257) : k0_chk1 v := ⟨row_inb v h, row_inb v h⟩
theorem chk2_of_lt (v : BitVec 32) (h : v.toNat < 50257) : k0_chk2 v := ⟨row_inb v h, row_inb v h⟩
theorem chk3_of_lt (v : BitVec 32) (h : v.toNat < 50257) : k0_chk3 v := ⟨row_inb v h, row_inb v h⟩
theorem chk4_of_lt (v : BitVec 32) (h : v.toNat < 50257) : k0_chk4 v := ⟨row_inb v h, row_inb v h⟩
theorem chk5_of_lt (v : BitVec 32) (h : v.toNat < 50257) : k0_chk5 v := ⟨row_inb v h, row_inb v h⟩
theorem chk6_of_lt (v : BitVec 32) (h : v.toNat < 50257) : k0_chk6 v := ⟨row_inb v h, row_inb v h⟩
theorem chk7_of_lt (v : BitVec 32) (h : v.toNat < 50257) : k0_chk7 v := ⟨row_inb v h, row_inb v h⟩
theorem chk8_of_lt (v : BitVec 32) (h : v.toNat < 50257) : k0_chk8 v := row_inb v h

end Cert.Kernel.Hand
end
-- ==== Proof.BFrame.lean ====
/-
  The lookup kernel's program runs to its end from any memory: the conditions its body assumes at every grid point
  hold, because every word of the clipped token table is a row number of the embedding table; and the run leaves
  both arguments as they were, since neither is the region's result array nor written by the reshape that follows
  the region.
-/
import proofs.«419301_j71760313581990_2_alg».proof.Proof.BData
import proofs.«419301_j71760313581990_2_alg».proof.Proof.BHost

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The conditions the body assumes hold at every point: every table word is a row number. -/
theorem hyps : Hyps m := fun c t =>
  ⟨chk1_of_lt _ (wordAt_lt m c _ _), chk2_of_lt _ (wordAt_lt m c _ _), chk3_of_lt _ (wordAt_lt m c _ _),
    chk4_of_lt _ (wordAt_lt m c _ _), chk5_of_lt _ (wordAt_lt m c _ _), chk6_of_lt _ (wordAt_lt m c _ _),
    chk7_of_lt _ (wordAt_lt m c _ _), chk8_of_lt _ (wordAt_lt m c _ _)⟩

/-- A buffer that is neither the region's result array nor the reshape's result holds, after the reshape that follows
    the region, what it held when the region was entered: the reshape writes its own result only, and the region's
    exit contents differ from its entry contents at the result array only. -/
theorem afterTail_of_ne (hH : Hyps m) (c : Dev nD) (b : Ref sig .tc) (h2 : ∀ w, Pipeline.arrRef spec0 w ≠ b) (h3 : b ≠ main_v3) :
    Pipeline.afterTail pcfgs (fun _ => adm m) (dats m hH) 0 (V0 m) [hostOps1] c b = V m c b := by
  unfold Pipeline.afterTail
  rw [StableHlo.after_of_forall_not_mem _ _ (fun op hop => ?_), Pipeline.withArrays_of_ne _ c (V0 m c) _ b h2]
  simp only [List.flatten_cons, List.flatten_nil, List.append_nil, hostOps1, List.mem_cons, List.mem_nil_iff, or_false] at hop
  subst hop
  rw [StableHlo.reshape_writes, Finset.mem_singleton]
  exact StableHlo.devRef_ne_of_ne h3

theorem arg0_mem : main_arg0 ∈ Pipeline.restRefs sig spec0 := Pipeline.mem_restRefs_of main_arg0 (by decide) (by decide)
theorem arg1_mem : main_arg1 ∈ Pipeline.restRefs sig spec0 := Pipeline.mem_restRefs_of main_arg1 (by decide) (by decide)

/-- The program runs to the end without a fault and leaves its two arguments as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h c).2 main_arg0 arg0_mem).trans ((afterTail_of_ne m (hyps m) c main_arg0 (by decide) (by decide)).trans (V_main_arg0 m c)),
       ((h c).2 main_arg1 arg1_mem).trans ((afterTail_of_ne m (hyps m) c main_arg1 (by decide) (by decide)).trans (V_main_arg1 m c))⟩)
    (run_main m ρ (hyps m))

end Cert.Kernel.Hand

end
-- ==== Proof.KBody.lean ====
import proofs.«419301_j71760313581990_2_alg».proof.Proof.Gen.KernelIdeal.Launch
import proofs.«419301_j71760313581990_2_alg».proof.Proof.Gen.KernelIdeal.Skeleton
import Idealize.ShloMosaic.Lib.Transfers
import Idealize.ShloMosaic.Lib.Writes
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! The body of the lookup kernel at one grid point, on symbolic operands: eight token words are read from the clipped
    token table; for each, the row it names is copied from the embedding table into one row of the output block, all
    eight copies issued before any is waited for, each on a cell of its own, and all eight waited for before the body
    returns. The embedding table is held as one read share per cell, so that two copies may read the same row at once. -/

/-- The token table as the body is handed it: the whole SMEM buffer of clipped words. -/
abbrev tbM : Memref sig .tc .smem S16384 .i32 := Memref.whole main_v1
abbrev htbM : tbM.IsWhole := Memref.isWhole_whole _
/-- The embedding table, left in HBM, whole. -/
abbrev hbM : Memref sig .tc .hbm S50257x1024 .f32 := Memref.whole main_arg1
abbrev hhbM : hbM.IsWhole := Memref.isWhole_whole _

abbrev MBuf (c : Dev nD) {sp : Space} {S : Shape} {e : EltTy} (M : Memref sig .tc sp S e) : Type := Buf (Elt F) (M.view.loc (c : Thread nD τ))
/-- The token table held at the half share the region lends the body. -/
abbrev tbPt (c : Dev nD) (f : MBuf (F := F) c tbM) : sProp 𝕄 := tbM.view.loc (c : Thread nD τ) ↦{fullShare.right} f
/-- The embedding table held at the read share of cell k. -/
abbrev hbTok (c : Dev nD) (k : ℕ) (f : MBuf (F := F) c hbM) : sProp 𝕄 := hbM.view.loc (c : Thread nD τ) ↦{Transfers.shareTokN fullShare k} f

/-- The word the body loads from the token table at offset `off`. -/
abbrev wordAt (c : Dev nD) (xt : MBuf (F := F) c tbM) (off : Fin 1 → Nat) (h : ∀ a, off a + S1.size a ≤ S16384.size a) : Elt F .i32 :=
  tbM.view.readAt (Elt F) (Rect.unit (s := S16384) off S1.size h).toLoadRect xt (Shape.Idx.first (numel1_S1.symm ▸ Nat.one_pos))

set_option sl_exec.dmaWindow true in
set_option sl_exec.dmaWindowSet true in
set_option maxHeartbeats 4000000 in
noncomputable def kernelRun (c : Dev nD) (i : grid0.Coords) (arg3 : Memref sig .tc .vmem S8x1024 .f32) (harg3 : arg3.IsWhole)
    (xt : MBuf (F := F) c tbM) (fh : MBuf (F := F) c hbM)
    (hw1 : k0_chk1 (wordAt c xt (k0_off1 i) (k0_off1_inb i))) (hw2 : k0_chk2 (wordAt c xt (k0_off3 i) (k0_off3_inb i)))
    (hw3 : k0_chk3 (wordAt c xt (k0_off5 i) (k0_off5_inb i))) (hw4 : k0_chk4 (wordAt c xt (k0_off7 i) (k0_off7_inb i)))
    (hw5 : k0_chk5 (wordAt c xt (k0_off9 i) (k0_off9_inb i))) (hw6 : k0_chk6 (wordAt c xt (k0_off11 i) (k0_off11_inb i)))
    (hw7 : k0_chk7 (wordAt c xt (k0_off13 i) (k0_off13_inb i))) (hw8 : k0_chk8 (wordAt c xt (k0_off15 i) (k0_off15_inb i))) :
    { L : List (View.Piece (Elt F) S8x1024 .f32) //
      ∀ (W : Waits sig Unit) (K : PUnit → sProp 𝕄),
        iprop((∃ d, owns (c : Thread nD τ) arg3 fullShare d) ∗ tbPt c xt
            ∗ hbTok c 2 fh ∗ hbTok c 3 fh ∗ hbTok c 4 fh ∗ hbTok c 5 fh ∗ hbTok c 6 fh ∗ hbTok c 7 fh ∗ hbTok c 8 fh ∗ hbTok c 9 fh
            ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0
            ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0
            ∗ owes (c : Thread nD τ) 0 W
            ∗ (iprop((∃ f, arg3.view.loc (c : Thread nD τ) ↦[arg3.view.set]{fullShare} arg3.view.writes (Elt F) f L) ∗ tbPt c xt
                ∗ hbTok c 2 fh ∗ hbTok c 3 fh ∗ hbTok c 4 fh ∗ hbTok c 5 fh ∗ hbTok c 6 fh ∗ hbTok c 7 fh ∗ hbTok c 8 fh ∗ hbTok c 9 fh
                ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0
                ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0
                ∗ (∃ W', owes (c : Thread nD τ) 0 W')) -∗ K ⟨⟩))
          ⊢ wp frame (wpE (defs₀ (F := F)) Variants.none c none) Set.univ (cc0__gather_kernel i tbM htbM hbM hhbM arg3 harg3 cc0_scratch0) K } := by
  refine ⟨?_, fun W K => ?run⟩
  case run =>
    simp only [cc0__gather_kernel_eq_skeleton]; unfold cc0__gather_kernel_skel
    simp only [k0_part1_eq_skeleton, k0_part2_eq_skeleton, k0_part3_eq_skeleton]
    unfold owns
    iintro ⟨⟨%d1, %f1, -, H1⟩, HT, Hh2, Hh3, Hh4, Hh5, Hh6, Hh7, Hh8, Hh9, Hq2, Hq3, Hq4, Hq5, Hq6, Hq7, Hq8, Hq9, HW, Hk⟩
    sl_exec (disch := first | sl_exact hw1 | sl_exact hw2 | sl_exact hw3 | sl_exact hw4 | sl_exact hw5 | sl_exact hw6 | sl_exact hw7 | sl_exact hw8)
    sl_step
    iapply Hk
    isplitl [H1]; · iexists _; iexact H1
    isplitl [HT]; · iexact HT
    isplitl [Hh2]; · iexact Hh2
    isplitl [Hh3]; · iexact Hh3
    isplitl [Hh4]; · iexact Hh4
    isplitl [Hh5]; · iexact Hh5
    isplitl [Hh6]; · iexact Hh6
    isplitl [Hh7]; · iexact Hh7
    isplitl [Hh8]; · iexact Hh8
    isplitl [Hh9]; · iexact Hh9
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    iexists _; iexact HW

/-- One staging buffer of the output window, through which the block's contents are stated. -/
abbrev VO : View sig .tc .vmem S8x1024 .f32 := (Memref.whole cc0_stg0_0 : Memref sig .tc .vmem S8x1024 .f32).view

/-- The eight row pieces tile the block, so they cover it. -/
theorem cover (c : Dev nD) (i : grid0.Coords) (arg3 : Memref sig .tc .vmem S8x1024 .f32) (harg3 : arg3.IsWhole)
    (xt : MBuf (F := F) c tbM) (fh : MBuf (F := F) c hbM)
    (hw1 : k0_chk1 (wordAt c xt (k0_off1 i) (k0_off1_inb i))) (hw2 : k0_chk2 (wordAt c xt (k0_off3 i) (k0_off3_inb i)))
    (hw3 : k0_chk3 (wordAt c xt (k0_off5 i) (k0_off5_inb i))) (hw4 : k0_chk4 (wordAt c xt (k0_off7 i) (k0_off7_inb i)))
    (hw5 : k0_chk5 (wordAt c xt (k0_off9 i) (k0_off9_inb i))) (hw6 : k0_chk6 (wordAt c xt (k0_off11 i) (k0_off11_inb i)))
    (hw7 : k0_chk7 (wordAt c xt (k0_off13 i) (k0_off13_inb i))) (hw8 : k0_chk8 (wordAt c xt (k0_off15 i) (k0_off15_inb i)))
    (y : S8x1024.Idx) :
    ∃ pc ∈ (kernelRun c i arg3 harg3 xt fh hw1 hw2 hw3 hw4 hw5 hw6 hw7 hw8).1, y ∈ pc.1.set :=
  View.cover_of_tiledL (kernelRun c i arg3 harg3 xt fh hw1 hw2 hw3 hw4 hw5 hw6 hw7 hw8).1 S1x1024.size (by sl_kernel_rfl) y

/-- What the body leaves in the output block: its eight row pieces read back. -/
def outOf (c : Dev nD) (i : grid0.Coords) (arg3 : Memref sig .tc .vmem S8x1024 .f32) (harg3 : arg3.IsWhole)
    (xt : MBuf (F := F) c tbM) (fh : MBuf (F := F) c hbM)
    (hw1 : k0_chk1 (wordAt c xt (k0_off1 i) (k0_off1_inb i))) (hw2 : k0_chk2 (wordAt c xt (k0_off3 i) (k0_off3_inb i)))
    (hw3 : k0_chk3 (wordAt c xt (k0_off5 i) (k0_off5_inb i))) (hw4 : k0_chk4 (wordAt c xt (k0_off7 i) (k0_off7_inb i)))
    (hw5 : k0_chk5 (wordAt c xt (k0_off9 i) (k0_off9_inb i))) (hw6 : k0_chk6 (wordAt c xt (k0_off11 i) (k0_off11_inb i)))
    (hw7 : k0_chk7 (wordAt c xt (k0_off13 i) (k0_off13_inb i))) (hw8 : k0_chk8 (wordAt c xt (k0_off15 i) (k0_off15_inb i))) :
    Vec F S8x1024 .f32 :=
  VO.read (Elt F) (VO.writes (Elt F) VO.junk (kernelRun c i arg3 harg3 xt fh hw1 hw2 hw3 hw4 hw5 hw6 hw7 hw8).1)

end Cert.KernelIdeal.Hand

end
-- ==== Proof.KKit.lean ====
/-
  The program around its one kernel region, and what the region is handed: the arrays as the region finds them (the
  contents after the host operations that come before it: the token ids flattened and clipped), the clipped token table
  as the region's prefetched table, the embedding table as the one array the body reads by copies of its own, the body's
  eight cells, and the one host operation after the region (a reshape of the result) seen to touch none of these.
-/
import proofs.«419301_j71760313581990_2_alg».proof.Proof.KBody
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The program around the region -/

/-- Core `c`'s buffer contents when the region is entered: after the host operations before it. -/
abbrev V0 (c : Dev nD) : Valuation τ sig (Elt F) := StableHlo.after (List.flatten [hostOps0, hostOps0_1]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is host operations, the region, one more host operation: it reduces to the region continued by the last. -/
theorem hmain (𝒱₀ : Variants) : Pipeline.HMainPK (Ix := Unit) (Name := ℕ) (U := Pipeline.UD sig nD τ) (Lvl := ℕ) pcfgs 0 defs₀ 𝒱₀ m (main (F := F)) (V m)
      (fun _ => Pipeline.chain [StableHlo.seq hostOps1]) :=
  Pipeline.hmainP_around pcfgs 0 defs₀ 𝒱₀ m main [hostOps0, hostOps0_1] [hostOps1]
    (by simp only [List.Forall]; exact ⟨hostOps0_sub, hostOps0_1_sub⟩)
    (by simp only [List.Forall]; exact ⟨hostOps0_fresh, hostOps0_1_fresh⟩) main_chain

/-- The array the body reads by its own copies: the embedding table. -/
def H0 : Finset (Ref sig .tc) := {main_arg1}
theorem H0_sub : H0 ⊆ Pipeline.restRefsP sig pre0 spec0 := by decide

/-- The reshape after the region touches neither the token table nor the embedding table. -/
theorem sfx_but : ∀ ops ∈ ([hostOps1] : List (List (HloOp τ sig (Elt F)))), ∀ op ∈ ops,
    op.bufs ⊆ Pipeline.tailRefsBut sig pre0 spec0 H0 := by
  intro ops hops op hop
  simp only [List.mem_cons, List.mem_nil_iff, or_false] at hops
  subst hops
  have hop' := hop
  simp only [hostOps1, List.mem_cons, List.mem_nil_iff, or_false] at hop'
  refine Pipeline.sub_tailRefsBut pre0 spec0 H0 op ((List.forall_iff_forall_mem.mp hostOps1_sub) op hop) ?_ ?_
  · subst hop'
    intro k; fin_cases k
    simp only [StableHlo.reshape_bufs, Finset.mem_insert, Finset.mem_singleton, not_or]
    and_intros <;> exact StableHlo.devRef_ne_of_ne (by decide)
  · subst hop'
    intro b hb
    simp only [H0, Finset.mem_singleton] at hb
    subst hb
    simp only [StableHlo.reshape_bufs, Finset.mem_insert, Finset.mem_singleton, not_or]
    and_intros <;> exact StableHlo.devRef_ne_of_ne (by decide)

/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- And it writes its own result only, not the region's result array. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  subst hops
  simp only [hostOps1, List.mem_cons, List.mem_nil_iff, or_false] at hop
  subst hop
  intro w; fin_cases w
  simp only [StableHlo.reshape_writes, Finset.mem_singleton]
  exact StableHlo.devRef_ne_of_ne (by decide)

theorem V_main_arg0 (c : Dev nD) : V m c main_arg0 = m ((c : Thread nD τ).loc main_arg0) := by
  show StableHlo.after (List.flatten [hostOps0, hostOps0_1]) (fun b => m (c, b)) (Proc.devRef .tc main_arg0) = _
  rw [StableHlo.after_of_forall_not_mem]
  simp only [hostOps0, hostOps0_1, List.flatten_cons, List.flatten_nil, List.append_nil, List.cons_append, List.nil_append]
  intro op hop
  simp only [List.mem_cons, List.mem_nil_iff, or_false] at hop
  rcases hop with rfl | rfl | rfl | rfl | rfl | rfl | rfl | rfl | rfl <;>
    simp only [StableHlo.nullary_writes, StableHlo.unary_writes, StableHlo.binary_writes, StableHlo.reshape_writes, Finset.mem_singleton] <;>
    exact StableHlo.devRef_ne_of_ne (by decide)

theorem V_main_arg1 (c : Dev nD) : V m c main_arg1 = m ((c : Thread nD τ).loc main_arg1) := by
  show StableHlo.after (List.flatten [hostOps0, hostOps0_1]) (fun b => m (c, b)) (Proc.devRef .tc main_arg1) = _
  rw [StableHlo.after_of_forall_not_mem]
  simp only [hostOps0, hostOps0_1, List.flatten_cons, List.flatten_nil, List.append_nil, List.cons_append, List.nil_append]
  intro op hop
  simp only [List.mem_cons, List.mem_nil_iff, or_false] at hop
  rcases hop with rfl | rfl | rfl | rfl | rfl | rfl | rfl | rfl | rfl <;>
    simp only [StableHlo.nullary_writes, StableHlo.unary_writes, StableHlo.binary_writes, StableHlo.reshape_writes, Finset.mem_singleton] <;>
    exact StableHlo.devRef_ne_of_ne (by decide)

/-! ## The prefetched table -/

/-- The token table's contents when the region is entered (there is one device). -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
/-- Those contents as admissible contents (the pipeline's side condition of them is empty), and the pipeline at them. -/
abbrev adm : (pcfg0 (F := F)).Adm := ⟨tbl m, trivial⟩
abbrev cfgM : Pipeline.Cfg sig Λ₀ := cfg0 (adm m)

/-- The table's half share, as the body's run takes it. -/
theorem PhiT_eq (c : Dev nD) : (Pipeline.ΦT pre0 (tbl m) c : sProp 𝕄) = tbPt c (tbl m 0) := by
  unfold Pipeline.ΦT Pipeline.prefHeld
  rw [show (Finset.univ : Finset (Fin 1)) = {(0 : Fin 1)} from by decide, bigSep_singleton]
  rfl

/-! ## The body's own cells and the array it copies from -/

abbrev osem0 : Fin 8 → SemLoc sig := fun j =>
  (![SemLoc.dma 2, SemLoc.dma 3, SemLoc.dma 4, SemLoc.dma 5, SemLoc.dma 6, SemLoc.dma 7, SemLoc.dma 8, SemLoc.dma 9] : Fin 8 → SemLoc sig) j
theorem ownSemFacts0 : Pipeline.OwnSemFacts spec0 osem0 := by decide

theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0
          ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0) := by
  rw [Pipeline.ownSems0_eq_of_list c osem0 [0, 1, 2, 3, 4, 5, 6, 7] (by decide) (by decide)]; rfl

/-- The embedding table held whole at the full share. -/
abbrev hbPt (c : Dev nD) (f : MBuf (F := F) c hbM) : sProp 𝕄 := hbM.view.loc (c : Thread nD τ) ↦{fullShare} f

theorem hbmPts0_eq (c : Dev nD) :
    (bigSep H0 (fun b => ((c : Thread nD τ).loc b) ↦{fullShare} V m c b) : sProp 𝕄) = hbPt c (V m c main_arg1) := by
  rw [BI.bigSep_eq_bigSepL_of_eq [main_arg1] (by decide) (by decide)]; rfl

/-- The invariant of a body with copies of its own, conjunct by conjunct: the generator register at some state, the
    eight cells at zero, the embedding table at its launch contents (the kernel names no scratch buffer). -/
theorem PhiD0_eq (c : Dev nD) :
    (Pipeline.ΦD osem0 spec0 H0 (V m) c : sProp 𝕄)
      = iprop(emp ∗ (∃ r, prngReg c r)
          ∗ iprop(semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0
            ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0)
          ∗ hbPt c (V m c main_arg1)) := by
  rw [Pipeline.ΦD_eq, scopedRest0_eq, ownSems00_eq, hbmPts0_eq]
  rfl

end Cert.KernelIdeal.Hand

end
-- ==== Proof.KData.lean ====
/-
  The proof data of the lookup kernel's one region, the body's obligation at every grid point, and the run of the
  whole program. After the body at point t the output block holds the eight rows its copies landed; the region's
  invariant is the eight cells at zero, the embedding table at its launch contents and the token table's half share.
  At each point the embedding table's full share is split into one read share per cell for the body's run and
  joined again afterwards.
-/
import proofs.«419301_j71760313581990_2_alg».proof.Proof.KKit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The output window's current staging memref at point `t`, as the pipeline passes it to the body, and its wholeness. -/
abbrev ms (t : Fin (cfgM m).N) : Memref sig .tc .vmem S8x1024 .f32 := spec0_0.stage ((cfgM m).slots t 0)
abbrev hs (t : Fin (cfgM m).N) : (ms m t).IsWhole := hstage0_0 (((cfgM m).slots t 0).cast nbuf0_0)

/-- The kernel body at point `t`, on what the pipeline calls it with. -/
abbrev bodyAt (t : Fin (cfgM m).N) : Prog (TpuEff nD τ sig (Elt F) Λ₀ .tc) PUnit :=
  cc0__gather_kernel (grid0.coords t) (Memref.whole main_v1) (Memref.isWhole_whole _) (Memref.whole main_arg1) (Memref.isWhole_whole _)
    (spec0_0.stage ((cfgM m).slots t 0)) (hstage0_0 (((cfgM m).slots t 0).cast nbuf0_0)) cc0_scratch0

/-- Every word the body reads from the token table, at every point, names a row of the embedding table: the side
    conditions the body assumes. -/
def Hyps : Prop :=
  ∀ (c : Dev nD) (t : Fin (cfgM m).N),
    k0_chk1 (wordAt c (tbl m 0) (k0_off1 (grid0.coords t)) (k0_off1_inb (grid0.coords t)))
    ∧ k0_chk2 (wordAt c (tbl m 0) (k0_off3 (grid0.coords t)) (k0_off3_inb (grid0.coords t)))
    ∧ k0_chk3 (wordAt c (tbl m 0) (k0_off5 (grid0.coords t)) (k0_off5_inb (grid0.coords t)))
    ∧ k0_chk4 (wordAt c (tbl m 0) (k0_off7 (grid0.coords t)) (k0_off7_inb (grid0.coords t)))
    ∧ k0_chk5 (wordAt c (tbl m 0) (k0_off9 (grid0.coords t)) (k0_off9_inb (grid0.coords t)))
    ∧ k0_chk6 (wordAt c (tbl m 0) (k0_off11 (grid0.coords t)) (k0_off11_inb (grid0.coords t)))
    ∧ k0_chk7 (wordAt c (tbl m 0) (k0_off13 (grid0.coords t)) (k0_off13_inb (grid0.coords t)))
    ∧ k0_chk8 (wordAt c (tbl m 0) (k0_off15 (grid0.coords t)) (k0_off15_inb (grid0.coords t)))

/-- What the output block holds after the body at point `t`. -/
def outsAt (hH : Hyps m) (c : Dev nD) (t : Fin (cfgM m).N) : Vec F S8x1024 .f32 :=
  outOf c (grid0.coords t) (ms m t) (hs m t) (tbl m 0) (V m c main_arg1)
    (hH c t).1 (hH c t).2.1 (hH c t).2.2.1 (hH c t).2.2.2.1 (hH c t).2.2.2.2.1 (hH c t).2.2.2.2.2.1 (hH c t).2.2.2.2.2.2.1 (hH c t).2.2.2.2.2.2.2

/-- The proof data of the region on core `c`. -/
def dats (hH : Hyps m) (_ : Fin 1) (c : Dev nD) : Dat τ (Elt F) Unit ℕ (Pipeline.UD sig nD τ) ℕ (cfgM m) c where
  A w := V m c (Pipeline.arrRef spec0 w)
  after w t := match w with
    | ⟨0, _⟩ => outsAt m hH c t
  Φ _ := iprop(Pipeline.ΦD osem0 spec0 H0 (V m) c ∗ Pipeline.ΦT pre0 (tbl m) c)
  q _ := fullShare
  owed _ := 0

theorem A_eq (hH : Hyps m) (c : Dev nD) (w : Fin (cfgM m).W) : (dats m hH 0 c).A w = V m c (Pipeline.arrRef spec0 w) := by
  dsimp only [dats]

theorem after0 (hH : Hyps m) (c : Dev nD) (t : Fin (cfgM m).N) : (dats m hH 0 c).after 0 t = outsAt m hH c t := by
  dsimp only [dats]; try rfl

/-- The embedding table at the full share is what remains after ten read shares are split off, and the ten. -/
theorem hb_toks (c : Dev nD) (f : MBuf (F := F) c hbM) :
    (hbPt c f : sProp 𝕄) ⊣⊢ iprop((hbM.view.loc (c : Thread nD τ) ↦{Transfers.shareDrop fullShare 10} f)
      ∗ hbTok c 0 f ∗ hbTok c 1 f ∗ hbTok c 2 f ∗ hbTok c 3 f ∗ hbTok c 4 f ∗ hbTok c 5 f ∗ hbTok c 6 f ∗ hbTok c 7 f ∗ hbTok c 8 f ∗ hbTok c 9 f) := by
  have h := Transfers.pointsTo_toks_range (Ix := Unit) (Name := ℕ) (U := Pipeline.UD sig nD τ) (Lvl := ℕ)
    (ℓ := hbM.view.loc (c : Thread nD τ)) (S := Finset.univ) (f := f) fullShare 10
  rw [BI.bigSep_eq_bigSepL_of_eq [0, 1, 2, 3, 4, 5, 6, 7, 8, 9] (by decide) (by decide)] at h
  exact h

/-! ## The body obligation, at a generic point -/

def bodyPre (hH : Hyps m) (c : Dev nD) (t : Fin (cfgM m).N) : sProp 𝕄 :=
  iprop((dats m hH 0 c).Φ t.castSucc ∗ (dats m hH 0 c).owesAt () t.castSucc
    ∗ (∃ d, owns (c : Thread nD τ) (ms m t) fullShare ((dats m hH 0 c).before 0 t d)))

def bodyPost (hH : Hyps m) (c : Dev nD) (t : Fin (cfgM m).N) : sProp 𝕄 :=
  iprop((dats m hH 0 c).Φ t.succ ∗ (dats m hH 0 c).owesAt () t.succ
    ∗ owns (c : Thread nD τ) (ms m t) fullShare ((dats m hH 0 c).after 0 t))

theorem sound_body (hH : Hyps m) (c : Dev nD) (t : Fin (cfgM m).N) :
    bodyPre m hH c t ⊢ wp frame (wpE (defs₀ (F := F)) Variants.none c none) Set.univ (bodyAt m t) (fun _ => bodyPost m hH c t) := by
  unfold bodyPre bodyPost bodyAt
  rw [show (dats m hH 0 c).Φ t.succ = (dats m hH 0 c).Φ t.castSucc from rfl, after0]
  rw [show (dats m hH 0 c).Φ t.castSucc = iprop(Pipeline.ΦD osem0 spec0 H0 (V m) c ∗ Pipeline.ΦT pre0 (tbl m) c) from rfl, PhiD0_eq, PhiT_eq]
  unfold Dat.owesAt Pipeline.owesWithin
  rw [show (dats m hH 0 c).owed t.castSucc = 0 from rfl, show (dats m hH 0 c).owed t.succ = 0 from rfl]
  unfold outsAt
  unfold outOf
  iintro ⟨⟨⟨-, Hg, ⟨Hq2, Hq3, Hq4, Hq5, Hq6, Hq7, Hq8, Hq9⟩, Hh⟩, HT⟩, ⟨%W, -, HW⟩, ⟨%d0, H0⟩⟩
  ihave Hh' := (hb_toks c (V m c main_arg1)).1 $$ Hh
  icases Hh' with ⟨Hr, Hh0, Hh1, Hh2, Hh3, Hh4, Hh5, Hh6, Hh7, Hh8, Hh9⟩
  iapply ((kernelRun c (grid0.coords t) (ms m t) (hs m t) (tbl m 0) (V m c main_arg1)
    (hH c t).1 (hH c t).2.1 (hH c t).2.2.1 (hH c t).2.2.2.1 (hH c t).2.2.2.2.1 (hH c t).2.2.2.2.2.1 (hH c t).2.2.2.2.2.2.1 (hH c t).2.2.2.2.2.2.2).2 W _)
  isplitl [H0]; · iexists _; iexact H0
  isplitl [HT]; · iexact HT
  isplitl [Hh2]; · iexact Hh2
  isplitl [Hh3]; · iexact Hh3
  isplitl [Hh4]; · iexact Hh4
  isplitl [Hh5]; · iexact Hh5
  isplitl [Hh6]; · iexact Hh6
  isplitl [Hh7]; · iexact Hh7
  isplitl [Hh8]; · iexact Hh8
  isplitl [Hh9]; · iexact Hh9
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [HW]; · iexact HW
  iintro ⟨⟨%e1, H0⟩, HT, Hh2, Hh3, Hh4, Hh5, Hh6, Hh7, Hh8, Hh9, Hq2, Hq3, Hq4, Hq5, Hq6, Hq7, Hq8, Hq9, ⟨%W', HW'⟩⟩
  ihave Hh := (hb_toks c (V m c main_arg1)).2 $$ [Hr Hh0 Hh1 Hh2 Hh3 Hh4 Hh5 Hh6 Hh7 Hh8 Hh9]
  · isplitl [Hr]; · iexact Hr
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    isplitl [Hh6]; · iexact Hh6
    isplitl [Hh7]; · iexact Hh7
    isplitl [Hh8]; · iexact Hh8
    iexact Hh9
  isplitl [Hg Hq2 Hq3 Hq4 Hq5 Hq6 Hq7 Hq8 Hq9 Hh HT]
  · isplitl [Hg Hq2 Hq3 Hq4 Hq5 Hq6 Hq7 Hq8 Hq9 Hh]
    · isplitr; · iempintro
      isplitl [Hg]; · iexact Hg
      isplitl [Hq2 Hq3 Hq4 Hq5 Hq6 Hq7 Hq8 Hq9]
      · isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hq8]; · iexact Hq8
        iexact Hq9
      iexact Hh
    iexact HT
  isplitl [HW']
  · iexists W'; isplitr; · ipureintro; exact fun _ _ => Or.inl trivial
    iexact HW'
  unfold owns; iexists _; isplitr
  swap; · iexact H0
  ipureintro; exact View.read_writes_of_cover _ _ _ _ _ (cover c _ _ _ _ _ _ _ _ _ _ _ _ _)

/-- The library's body obligation, at every point. -/
theorem body_obligation (hH : Hyps m) (c : Dev nD) : BodyObligation (dats (F := F) m hH 0 c) (defs₀ (F := F)) Variants.none () Set.univ := fun t => by
  rw [bigSep_W0, bigSep_W0]
  exact sound_body m hH c t

/-! ## The run -/

set_option backward.isDefEq.respectTransparency.types false in
/-- From any memory with zero counters every weakly fair execution of the program terminates without a fault, the
    region's result array at what the library computes from the proof data and every other unscoped buffer at its
    contents after the reshape that follows the region. -/
theorem run_main (hH : Hyps m) : θ_run defs (onTc (τ := τ) (main (F := F))) (s₀ m ρ)
    (Pipeline.FramePost (Pipeline.pin pcfgs fun _ => adm m) (dats m hH) 0 (Pipeline.afterTail pcfgs (fun _ => adm m) (dats m hH) 0 (V0 m) [hostOps1])) :=
  Pipeline.θ_run_frameP_dma_around pcfgs (fun _ => adm m) (dats m hH) (0 : Fin 1) launch0 osem0 defs₀ Variants.none ownSemFacts0 H0 H0_sub m ρ main
    (hbody := fun c => (body_obligation m hH c).loose) (hshare := fun c => (dats m hH 0 c).share_full fun _ => rfl)
    (howed := fun _ _ => rfl) (V₀ := V0 m) (opss := [hostOps1]) (hsub := sfx_but) (hfresh := sfx_fresh) (hkeep := sfx_keeps)
    (hmain := hmain m Variants.none) (hA := A_eq m hH) (hpf := V_pre m)
    (hin := fun _ => .rfl) (hout := fun c => (show iprop(Pipeline.ΦD osem0 spec0 H0 (V m) c ∗ Pipeline.ΦT pre0 (tbl m) c) ⊢ Pipeline.ΦD osem0 spec0 H0 (V m) c from by
      iintro ⟨H, -⟩; iexact H))

end Cert.KernelIdeal.Hand

end
-- ==== Proof.KHost.lean ====
import proofs.«419301_j71760313581990_2_alg».proof.Proof.KKit
import proofs.«419301_j71760313581990_2_alg».proof.Proof.Spec
import proofs.«419301_j71760313581990_2_alg».proof.Proof.LibCast
import Idealize.ShloMosaic.Lib.StableHlo.Run
import Idealize.ShloMosaic.Lib.ValueIdx
import Idealize.ShloMosaic.Lib.Pipeline.Value
noncomputable section
namespace Cert.KernelIdeal.Hand
open Cert.KernelIdeal Cert.KernelIdeal.Gen Idealize.ShloMosaic Idealize.ShloMosaic.TcCoe Idealize.ShloMosaic.ValueIdx Idealize.SL.Sem
variable {F : FTy → Type} [FloatOps F] (m : (ℓ : Loc nD τ sig) → Buf (Elt F) ℓ)

/-! The program's host side, before the region: the token ids are flattened to 16384 words and each word is clipped
    into [0, 50256]; the clipped words are the table the region is handed. Every word of that table is therefore a row
    number of the embedding table, which is all the body's side conditions ask of a word it loads. -/

/-- The token table when the region is entered, as one term over the launch contents: the token ids flattened, then
    bounded below by 0 and above by 50256, elementwise. -/
theorem tbl_eq :
    (tbl m 0 : S16384.Idx → BitVec 32)
      = minsi (broadcastInDim S16384 ![] bcast_S_S16384 (constantI S_ 32 50256#32))
          (maxsi (broadcastInDim S16384 ![] bcast_S_S16384 (constantI S_ 32 0#32))
            (shapeCast S16384 (m (((0 : Dev nD).tc : Thread nD τ).loc main_arg0) : S4x4096.Idx → BitVec 32) shapeCasts_S4x4096_S16384)) := by
  show (StableHlo.after (List.flatten [hostOps0, hostOps0_1]) (fun b => m ((0 : Dev nD), b)) (Proc.devRef .tc main_v1) : S16384.Idx → BitVec 32) = _
  simp only [hostOps0, hostOps0_1, List.flatten_cons, List.flatten_nil, List.append_nil, List.cons_append, List.nil_append]
  after_results
  -- contents carried to a buffer's own type and back are the contents
  simp only [StableHlo.TRef.ofBuf_toBuf]
  rfl

/-- The token table the region is handed, read at position n: the clip of the token word at (n / 4096, n % 4096). -/
theorem tbl_apply (n : Fin 16384) :
    (tbl m 0 : S16384.Idx → BitVec 32) (ix1 n) = Cert.Spec.clipWord ((m (((0 : Dev nD).tc : Thread nD τ).loc main_arg0) : S4x4096.Idx → BitVec 32) (ix2 (⟨n.val / 4096, by omega⟩ : Fin 4) (⟨n.val % 4096, by omega⟩ : Fin 4096))) := by
  rw [tbl_eq]
  dsimp only [minsi, maxsi, broadcastInDim, constantI]
  -- position n of the flattened array is row n / 4096, column n % 4096 of the [4 × 4096] array
  rw [shapeCast_apply _ _ (ix1 n) (ix2 (⟨n.val / 4096, by omega⟩ : Fin 4) (⟨n.val % 4096, by omega⟩ : Fin 4096))
    (by rw [Shape.rowMajor_val_two, Shape.rowMajor_val_one]
        show n.val / 4096 * 4096 + n.val % 4096 = n.val
        omega)]
  rfl

/-- Every word of the token table is a row number of the embedding table. -/
theorem tbl_lt (x : S16384.Idx) : ((tbl m 0 : S16384.Idx → BitVec 32) x).toNat < 50257 := by
  have e : (tbl m 0 : S16384.Idx → BitVec 32) x = _ :=
    (congrArg (tbl m 0 : S16384.Idx → BitVec 32) (eq_ix1 (n := 16384) x)).trans (tbl_apply m (x 0))
  exact lt_of_eq_of_lt (congrArg BitVec.toNat e) (Cert.Spec.clipWord_toNat_lt _)

/-- An offset at which one word fits inside the 16384 is a position of the table. -/
theorem off_lt (off : Fin 1 → Nat) (h : ∀ a, off a + S1.size a ≤ S16384.size a) : off 0 < 16384 := by
  have := h 0
  simp [S1, S16384] at this
  omega

/-- A load of one word through the whole table reads the table's contents at the word's position, whatever the
    contents are. -/
theorem wordAt_var (c : Dev nD) (xt : MBuf (F := F) c tbM) (off : Fin 1 → Nat) (h : ∀ a, off a + S1.size a ≤ S16384.size a) :
    wordAt c xt off h = (xt : S16384.Idx → BitVec 32) (ix1 ⟨off 0, off_lt off h⟩) := by
  show (xt : S16384.Idx → BitVec 32) _ = _
  refine congrArg (xt : S16384.Idx → BitVec 32) ?_
  funext a
  apply Fin.ext
  fin_cases a
  show off 0 + 1 * 0 = off 0
  omega

/-- A word the body loads from the token table is one of the table's words (so a row number): -/
theorem wordAt_lt (c : Dev nD) (off : Fin 1 → Nat) (h : ∀ a, off a + S1.size a ≤ S16384.size a) : (wordAt c (tbl m 0) off h).toNat < 50257 := by
  exact lt_of_eq_of_lt (congrArg BitVec.toNat (wordAt_var c (tbl m 0) off h)) (tbl_lt m _)

/-- and which one: the word at position off 0. -/
theorem wordAt_eq (c : Dev nD) (off : Fin 1 → Nat) (h : ∀ a, off a + S1.size a ≤ S16384.size a) : wordAt c (tbl m 0) off h = (tbl m 0 : S16384.Idx → BitVec 32) (ix1 ⟨off 0, by have := h 0; simp [S1, S16384] at this; omega⟩) :=
  wordAt_var c (tbl m 0) off h

/-- One row of the embedding table, at a row number, lies inside the table. -/
theorem row_inb (v : BitVec 32) (h : v.toNat < 50257) :
    ∀ a : Fin 2, (![v.toNat, 0] : Fin 2 → Nat) a + S1x1024.size a ≤ S50257x1024.size a := by
  intro a
  fin_cases a <;> simp [S1x1024, S50257x1024] <;> omega

/-- The side conditions the body assumes of a loaded word hold of any row number (eight lemmas, one per check): -/
theorem chk1_of_lt (v : BitVec 32) (h : v.toNat < 50257) : k0_chk1 v := ⟨row_inb v h, row_inb v h⟩
theorem chk2_of_lt (v : BitVec 32) (h : v.toNat < 50257) : k0_chk2 v := ⟨row_inb v h, row_inb v h⟩
theorem chk3_of_lt (v : BitVec 32) (h : v.toNat < 50257) : k0_chk3 v := ⟨row_inb v h, row_inb v h⟩
theorem chk4_of_lt (v : BitVec 32) (h : v.toNat < 50257) : k0_chk4 v := ⟨row_inb v h, row_inb v h⟩
theorem chk5_of_lt (v : BitVec 32) (h : v.toNat < 50257) : k0_chk5 v := ⟨row_inb v h, row_inb v h⟩
theorem chk6_of_lt (v : BitVec 32) (h : v.toNat < 50257) : k0_chk6 v := ⟨row_inb v h, row_inb v h⟩
theorem chk7_of_lt (v : BitVec 32) (h : v.toNat < 50257) : k0_chk7 v := ⟨row_inb v h, row_inb v h⟩
theorem chk8_of_lt (v : BitVec 32) (h : v.toNat < 50257) : k0_chk8 v := row_inb v h

end Cert.KernelIdeal.Hand
end
-- ==== Proof.KFrame.lean ====
/-
  The lookup kernel's program runs to its end from any memory: the conditions its body assumes at every grid point
  hold, because every word of the clipped token table is a row number of the embedding table; and the run leaves
  both arguments as they were, since neither is the region's result array nor written by the reshape that follows
  the region.
-/
import proofs.«419301_j71760313581990_2_alg».proof.Proof.KData
import proofs.«419301_j71760313581990_2_alg».proof.Proof.KHost

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The conditions the body assumes hold at every point: every table word is a row number. -/
theorem hyps : Hyps m := fun c t =>
  ⟨chk1_of_lt _ (wordAt_lt m c _ _), chk2_of_lt _ (wordAt_lt m c _ _), chk3_of_lt _ (wordAt_lt m c _ _),
    chk4_of_lt _ (wordAt_lt m c _ _), chk5_of_lt _ (wordAt_lt m c _ _), chk6_of_lt _ (wordAt_lt m c _ _),
    chk7_of_lt _ (wordAt_lt m c _ _), chk8_of_lt _ (wordAt_lt m c _ _)⟩

/-- A buffer that is neither the region's result array nor the reshape's result holds, after the reshape that follows
    the region, what it held when the region was entered: the reshape writes its own result only, and the region's
    exit contents differ from its entry contents at the result array only. -/
theorem afterTail_of_ne (hH : Hyps m) (c : Dev nD) (b : Ref sig .tc) (h2 : ∀ w, Pipeline.arrRef spec0 w ≠ b) (h3 : b ≠ main_v3) :
    Pipeline.afterTail pcfgs (fun _ => adm m) (dats m hH) 0 (V0 m) [hostOps1] c b = V m c b := by
  unfold Pipeline.afterTail
  rw [StableHlo.after_of_forall_not_mem _ _ (fun op hop => ?_), Pipeline.withArrays_of_ne _ c (V0 m c) _ b h2]
  simp only [List.flatten_cons, List.flatten_nil, List.append_nil, hostOps1, List.mem_cons, List.mem_nil_iff, or_false] at hop
  subst hop
  rw [StableHlo.reshape_writes, Finset.mem_singleton]
  exact StableHlo.devRef_ne_of_ne h3

theorem arg0_mem : main_arg0 ∈ Pipeline.restRefs sig spec0 := Pipeline.mem_restRefs_of main_arg0 (by decide) (by decide)
theorem arg1_mem : main_arg1 ∈ Pipeline.restRefs sig spec0 := Pipeline.mem_restRefs_of main_arg1 (by decide) (by decide)

/-- The program runs to the end without a fault and leaves its two arguments as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h c).2 main_arg0 arg0_mem).trans ((afterTail_of_ne m (hyps m) c main_arg0 (by decide) (by decide)).trans (V_main_arg0 m c)),
       ((h c).2 main_arg1 arg1_mem).trans ((afterTail_of_ne m (hyps m) c main_arg1 (by decide) (by decide)).trans (V_main_arg1 m c))⟩)
    (run_main m ρ (hyps m))

end Cert.KernelIdeal.Hand

end
-- ==== Proof.KOut.lean ====
/-
  What the body leaves in its 8 × 1024 output block, read at an index. The body's eight copies each land one whole row of
  the block: copy k fills row k − 1 with the one-row slice of the embedding table at the row its token word names. The
  eight rows tile the block, so the block's contents are those of the pieces alone; an index in row j lies in no other
  piece's row, so it reads piece j's payload at (0, d); and a one-row slice of the table at row r, read at (0, d), is the
  table at (r, d).
-/
import proofs.«419301_j71760313581990_2_alg».proof.Proof.KBody
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-- The j-th word the body loads at grid coordinates i (j = 0 … 7): the table word at offset 8·i + j. -/
def wordOf (c : Dev nD) (xt : MBuf (F := F) c tbM) (i : grid0.Coords) : Fin 8 → Elt F .i32
  | 0 => wordAt c xt (k0_off1 i) (k0_off1_inb i) | 1 => wordAt c xt (k0_off3 i) (k0_off3_inb i) | 2 => wordAt c xt (k0_off5 i) (k0_off5_inb i) | 3 => wordAt c xt (k0_off7 i) (k0_off7_inb i)
  | 4 => wordAt c xt (k0_off9 i) (k0_off9_inb i) | 5 => wordAt c xt (k0_off11 i) (k0_off11_inb i) | 6 => wordAt c xt (k0_off13 i) (k0_off13_inb i) | 7 => wordAt c xt (k0_off15 i) (k0_off15_inb i)

/-- A piece that is the whole row o holds no index of another row, so there the contents are what the earlier pieces left. -/
theorem canon_row_skip {Val : EltTy → Type} [∀ e, Nonempty (Val e)] {e : EltTy} (o : Nat)
    (inb : ∀ a, (![o, 0] : Fin 2 → Nat) a + S1x1024.size a ≤ S8x1024.size a)
    (w : (Rect.unit (s := S8x1024) ![o, 0] S1x1024.size inb).shape.Idx → Val e) (L : List (View.Piece Val S8x1024 e))
    (j : Fin 8) (d : Fin 1024) (h : j.val ≠ o) :
    View.canon ((⟨Rect.unit (s := S8x1024) ![o, 0] S1x1024.size inb, w⟩ : View.Piece Val S8x1024 e) :: L) (ix2 j d)
      = View.canon L (ix2 j d) := by
  refine View.canon_cons_of_not_mem _ L ?_
  show ix2 j d ∉ (Rect.unit (s := S8x1024) ![o, 0] S1x1024.size inb).set
  rw [Rect.mem_set_unit]
  intro hall
  have h1 : o ≤ j.val ∧ j.val < o + 1 := hall 0
  omega

/-- A piece that is the whole row o, written last, leaves its payload in row o: entry d of the row is the payload's entry d. -/
theorem canon_row_hit {Val : EltTy → Type} [∀ e, Nonempty (Val e)] {e : EltTy} (o : Nat)
    (inb : ∀ a, (![o, 0] : Fin 2 → Nat) a + S1x1024.size a ≤ S8x1024.size a)
    (w : (Rect.unit (s := S8x1024) ![o, 0] S1x1024.size inb).shape.Idx → Val e) (L : List (View.Piece Val S8x1024 e))
    (j : Fin 8) (d : Fin 1024) (h : j.val = o) :
    View.canon ((⟨Rect.unit (s := S8x1024) ![o, 0] S1x1024.size inb, w⟩ : View.Piece Val S8x1024 e) :: L) (ix2 j d)
      = w (ix2 (0 : Fin 1) d) := by
  have he : (Rect.unit (s := S8x1024) ![o, 0] S1x1024.size inb).emb (ix2 (0 : Fin 1) d) = ix2 j d := by
    funext a
    refine Fin.ext ?_
    match a with
    | ⟨0, _⟩ => show o + 1 * 0 = j.val; omega
    | ⟨1, _⟩ => show 0 + 1 * d.val = d.val; omega
  rw [← he]
  exact View.canon_cons_emb _ w L _

/-- The one-row slice of the embedding table at row r, read at entry d, is the table at (r, d). -/
theorem slice_row_read (c : Dev nD) (fh : MBuf (F := F) c hbM) (off : Fin 2 → Nat)
    (inb : ∀ a, off a + S1x1024.size a ≤ S50257x1024.size a) (hr : ∀ a, (Rect.unit (s := S50257x1024) off S1x1024.size inb).stride a = 1)
    (r : Nat) (hoff : off = ![r, 0]) (hb : r < 50257) (d : Fin 1024) :
    ReadAs.same.apply (View.read (Elt F) (hbM.slice (Rect.unit (s := S50257x1024) off S1x1024.size inb) hr).view fh) (ix2 (0 : Fin 1) d)
      = (fh : S50257x1024.Idx → F .f32) (ix2 (⟨r, hb⟩ : Fin 50257) d) := by
  subst hoff
  show (fh : S50257x1024.Idx → F .f32) ((Rect.unit (s := S50257x1024) ![r, 0] S1x1024.size inb).emb (ix2 (0 : Fin 1) d)) = _
  refine congrArg (fh : S50257x1024.Idx → F .f32) ?_
  funext a
  refine Fin.ext ?_
  match a with
  | ⟨0, _⟩ => show r + 1 * 0 = r; omega
  | ⟨1, _⟩ => show 0 + 1 * d.val = d.val; omega

/-- The payload of copy 1, read at entry d, is the embedding table at the row word 0 names, entry d. -/
theorem dma1_apply (c : Dev nD) (i : grid0.Coords) (xt : MBuf (F := F) c tbM) (fh : MBuf (F := F) c hbM)
    (hw : k0_chk1 (wordAt c xt (k0_off1 i) (k0_off1_inb i))) (d : Fin 1024)
    (hb : BitVec.toNat (wordAt c xt (k0_off1 i) (k0_off1_inb i) : BitVec 32) < 50257) :
    kernelRun.sl.dma1 c i xt fh hw (ix2 (0 : Fin 1) d)
      = (fh : S50257x1024.Idx → F .f32) (ix2 (⟨BitVec.toNat (wordAt c xt (k0_off1 i) (k0_off1_inb i) : BitVec 32), hb⟩ : Fin 50257) d) := by
  unfold kernelRun.sl.dma1
  exact slice_row_read c fh _ _ _ _ rfl hb d

/-- The payload of copy 2, read at entry d, is the embedding table at the row word 1 names, entry d. -/
theorem dma2_apply (c : Dev nD) (i : grid0.Coords) (xt : MBuf (F := F) c tbM) (fh : MBuf (F := F) c hbM)
    (hw : k0_chk2 (wordAt c xt (k0_off3 i) (k0_off3_inb i))) (d : Fin 1024)
    (hb : BitVec.toNat (wordAt c xt (k0_off3 i) (k0_off3_inb i) : BitVec 32) < 50257) :
    kernelRun.sl.dma2 c i xt fh hw (ix2 (0 : Fin 1) d)
      = (fh : S50257x1024.Idx → F .f32) (ix2 (⟨BitVec.toNat (wordAt c xt (k0_off3 i) (k0_off3_inb i) : BitVec 32), hb⟩ : Fin 50257) d) := by
  unfold kernelRun.sl.dma2
  exact slice_row_read c fh _ _ _ _ rfl hb d

/-- The payload of copy 3, read at entry d, is the embedding table at the row word 2 names, entry d. -/
theorem dma3_apply (c : Dev nD) (i : grid0.Coords) (xt : MBuf (F := F) c tbM) (fh : MBuf (F := F) c hbM)
    (hw : k0_chk3 (wordAt c xt (k0_off5 i) (k0_off5_inb i))) (d : Fin 1024)
    (hb : BitVec.toNat (wordAt c xt (k0_off5 i) (k0_off5_inb i) : BitVec 32) < 50257) :
    kernelRun.sl.dma3 c i xt fh hw (ix2 (0 : Fin 1) d)
      = (fh : S50257x1024.Idx → F .f32) (ix2 (⟨BitVec.toNat (wordAt c xt (k0_off5 i) (k0_off5_inb i) : BitVec 32), hb⟩ : Fin 50257) d) := by
  unfold kernelRun.sl.dma3
  exact slice_row_read c fh _ _ _ _ rfl hb d

/-- The payload of copy 4, read at entry d, is the embedding table at the row word 3 names, entry d. -/
theorem dma4_apply (c : Dev nD) (i : grid0.Coords) (xt : MBuf (F := F) c tbM) (fh : MBuf (F := F) c hbM)
    (hw : k0_chk4 (wordAt c xt (k0_off7 i) (k0_off7_inb i))) (d : Fin 1024)
    (hb : BitVec.toNat (wordAt c xt (k0_off7 i) (k0_off7_inb i) : BitVec 32) < 50257) :
    kernelRun.sl.dma4 c i xt fh hw (ix2 (0 : Fin 1) d)
      = (fh : S50257x1024.Idx → F .f32) (ix2 (⟨BitVec.toNat (wordAt c xt (k0_off7 i) (k0_off7_inb i) : BitVec 32), hb⟩ : Fin 50257) d) := by
  unfold kernelRun.sl.dma4
  exact slice_row_read c fh _ _ _ _ rfl hb d

/-- The payload of copy 5, read at entry d, is the embedding table at the row word 4 names, entry d. -/
theorem dma5_apply (c : Dev nD) (i : grid0.Coords) (xt : MBuf (F := F) c tbM) (fh : MBuf (F := F) c hbM)
    (hw : k0_chk5 (wordAt c xt (k0_off9 i) (k0_off9_inb i))) (d : Fin 1024)
    (hb : BitVec.toNat (wordAt c xt (k0_off9 i) (k0_off9_inb i) : BitVec 32) < 50257) :
    kernelRun.sl.dma5 c i xt fh hw (ix2 (0 : Fin 1) d)
      = (fh : S50257x1024.Idx → F .f32) (ix2 (⟨BitVec.toNat (wordAt c xt (k0_off9 i) (k0_off9_inb i) : BitVec 32), hb⟩ : Fin 50257) d) := by
  unfold kernelRun.sl.dma5
  exact slice_row_read c fh _ _ _ _ rfl hb d

/-- The payload of copy 6, read at entry d, is the embedding table at the row word 5 names, entry d. -/
theorem dma6_apply (c : Dev nD) (i : grid0.Coords) (xt : MBuf (F := F) c tbM) (fh : MBuf (F := F) c hbM)
    (hw : k0_chk6 (wordAt c xt (k0_off11 i) (k0_off11_inb i))) (d : Fin 1024)
    (hb : BitVec.toNat (wordAt c xt (k0_off11 i) (k0_off11_inb i) : BitVec 32) < 50257) :
    kernelRun.sl.dma6 c i xt fh hw (ix2 (0 : Fin 1) d)
      = (fh : S50257x1024.Idx → F .f32) (ix2 (⟨BitVec.toNat (wordAt c xt (k0_off11 i) (k0_off11_inb i) : BitVec 32), hb⟩ : Fin 50257) d) := by
  unfold kernelRun.sl.dma6
  exact slice_row_read c fh _ _ _ _ rfl hb d

/-- The payload of copy 7, read at entry d, is the embedding table at the row word 6 names, entry d. -/
theorem dma7_apply (c : Dev nD) (i : grid0.Coords) (xt : MBuf (F := F) c tbM) (fh : MBuf (F := F) c hbM)
    (hw : k0_chk7 (wordAt c xt (k0_off13 i) (k0_off13_inb i))) (d : Fin 1024)
    (hb : BitVec.toNat (wordAt c xt (k0_off13 i) (k0_off13_inb i) : BitVec 32) < 50257) :
    kernelRun.sl.dma7 c i xt fh hw (ix2 (0 : Fin 1) d)
      = (fh : S50257x1024.Idx → F .f32) (ix2 (⟨BitVec.toNat (wordAt c xt (k0_off13 i) (k0_off13_inb i) : BitVec 32), hb⟩ : Fin 50257) d) := by
  unfold kernelRun.sl.dma7
  exact slice_row_read c fh _ _ _ _ rfl hb d

/-- The payload of copy 8, read at entry d, is the embedding table at the row word 7 names, entry d. -/
theorem dma8_apply (c : Dev nD) (i : grid0.Coords) (xt : MBuf (F := F) c tbM) (fh : MBuf (F := F) c hbM)
    (hw : k0_chk8 (wordAt c xt (k0_off15 i) (k0_off15_inb i))) (d : Fin 1024)
    (hb : BitVec.toNat (wordAt c xt (k0_off15 i) (k0_off15_inb i) : BitVec 32) < 50257) :
    kernelRun.sl.dma8 c i xt fh hw (ix2 (0 : Fin 1) d)
      = (fh : S50257x1024.Idx → F .f32) (ix2 (⟨BitVec.toNat (wordAt c xt (k0_off15 i) (k0_off15_inb i) : BitVec 32), hb⟩ : Fin 50257) d) := by
  unfold kernelRun.sl.dma8
  exact slice_row_read c fh _ _ _ _ rfl hb d

/-- Row j of the output block after the body is row (word j) of the embedding table, entry by entry. -/
theorem outOf_apply (c : Dev nD) (i : grid0.Coords) (arg3 : Memref sig .tc .vmem S8x1024 .f32) (harg3 : arg3.IsWhole)
    (xt : MBuf (F := F) c tbM) (fh : MBuf (F := F) c hbM)
    (hw1 : k0_chk1 (wordAt c xt (k0_off1 i) (k0_off1_inb i))) (hw2 : k0_chk2 (wordAt c xt (k0_off3 i) (k0_off3_inb i)))
    (hw3 : k0_chk3 (wordAt c xt (k0_off5 i) (k0_off5_inb i))) (hw4 : k0_chk4 (wordAt c xt (k0_off7 i) (k0_off7_inb i)))
    (hw5 : k0_chk5 (wordAt c xt (k0_off9 i) (k0_off9_inb i))) (hw6 : k0_chk6 (wordAt c xt (k0_off11 i) (k0_off11_inb i)))
    (hw7 : k0_chk7 (wordAt c xt (k0_off13 i) (k0_off13_inb i))) (hw8 : k0_chk8 (wordAt c xt (k0_off15 i) (k0_off15_inb i)))
    (j : Fin 8) (d : Fin 1024) (hb : BitVec.toNat (wordOf c xt i j : BitVec 32) < 50257) :
    outOf c i arg3 harg3 xt fh hw1 hw2 hw3 hw4 hw5 hw6 hw7 hw8 (ix2 j d)
      = (fh : S50257x1024.Idx → F .f32) (ix2 (⟨BitVec.toNat (wordOf c xt i j : BitVec 32), hb⟩ : Fin 50257) d) := by
  unfold outOf
  rw [View.read_writes_eq_canon _ _ _ (cover c i arg3 harg3 xt fh hw1 hw2 hw3 hw4 hw5 hw6 hw7 hw8)]
  unfold kernelRun
  dsimp only
  fin_cases j
  · refine (canon_row_skip 7 _ _ _ _ _ (by decide)).trans ?_
    refine (canon_row_skip 6 _ _ _ _ _ (by decide)).trans ?_
    refine (canon_row_skip 5 _ _ _ _ _ (by decide)).trans ?_
    refine (canon_row_skip 4 _ _ _ _ _ (by decide)).trans ?_
    refine (canon_row_skip 3 _ _ _ _ _ (by decide)).trans ?_
    refine (canon_row_skip 2 _ _ _ _ _ (by decide)).trans ?_
    refine (canon_row_skip 1 _ _ _ _ _ (by decide)).trans ?_
    refine (canon_row_hit 0 _ _ _ _ _ (by decide)).trans ?_
    exact dma1_apply c i xt fh hw1 d hb
  · refine (canon_row_skip 7 _ _ _ _ _ (by decide)).trans ?_
    refine (canon_row_skip 6 _ _ _ _ _ (by decide)).trans ?_
    refine (canon_row_skip 5 _ _ _ _ _ (by decide)).trans ?_
    refine (canon_row_skip 4 _ _ _ _ _ (by decide)).trans ?_
    refine (canon_row_skip 3 _ _ _ _ _ (by decide)).trans ?_
    refine (canon_row_skip 2 _ _ _ _ _ (by decide)).trans ?_
    refine (canon_row_hit 1 _ _ _ _ _ (by decide)).trans ?_
    exact dma2_apply c i xt fh hw2 d hb
  · refine (canon_row_skip 7 _ _ _ _ _ (by decide)).trans ?_
    refine (canon_row_skip 6 _ _ _ _ _ (by decide)).trans ?_
    refine (canon_row_skip 5 _ _ _ _ _ (by decide)).trans ?_
    refine (canon_row_skip 4 _ _ _ _ _ (by decide)).trans ?_
    refine (canon_row_skip 3 _ _ _ _ _ (by decide)).trans ?_
    refine (canon_row_hit 2 _ _ _ _ _ (by decide)).trans ?_
    exact dma3_apply c i xt fh hw3 d hb
  · refine (canon_row_skip 7 _ _ _ _ _ (by decide)).trans ?_
    refine (canon_row_skip 6 _ _ _ _ _ (by decide)).trans ?_
    refine (canon_row_skip 5 _ _ _ _ _ (by decide)).trans ?_
    refine (canon_row_skip 4 _ _ _ _ _ (by decide)).trans ?_
    refine (canon_row_hit 3 _ _ _ _ _ (by decide)).trans ?_
    exact dma4_apply c i xt fh hw4 d hb
  · refine (canon_row_skip 7 _ _ _ _ _ (by decide)).trans ?_
    refine (canon_row_skip 6 _ _ _ _ _ (by decide)).trans ?_
    refine (canon_row_skip 5 _ _ _ _ _ (by decide)).trans ?_
    refine (canon_row_hit 4 _ _ _ _ _ (by decide)).trans ?_
    exact dma5_apply c i xt fh hw5 d hb
  · refine (canon_row_skip 7 _ _ _ _ _ (by decide)).trans ?_
    refine (canon_row_skip 6 _ _ _ _ _ (by decide)).trans ?_
    refine (canon_row_hit 5 _ _ _ _ _ (by decide)).trans ?_
    exact dma6_apply c i xt fh hw6 d hb
  · refine (canon_row_skip 7 _ _ _ _ _ (by decide)).trans ?_
    refine (canon_row_hit 6 _ _ _ _ _ (by decide)).trans ?_
    exact dma7_apply c i xt fh hw7 d hb
  · refine (canon_row_hit 7 _ _ _ _ _ (by decide)).trans ?_
    exact dma8_apply c i xt fh hw8 d hb

end Cert.KernelIdeal.Hand
end
-- ==== Proof.KValue.lean ====
/-
  The lookup kernel's value. After the body at point t the output block's row j holds the embedding table's row named by
  the token table's word at position 8t + j; the block is written back at every point, block t to rows 8t … 8t + 7 of the
  result array, and those blocks cover the array; so the array ends with row n the embedding table's row named by the
  table's word n. The table's word n is the clip of the token word at (n / 4096, n % 4096), and the reshape after the
  region reads row 4096·b + s at (b, s): the program's result is the lookup through the clipped token words.
-/
import proofs.«419301_j71760313581990_2_alg».proof.Proof.KFrame
import proofs.«419301_j71760313581990_2_alg».proof.Proof.KOut
import proofs.«419301_j71760313581990_2_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## Arithmetic of the grid's one axis -/

/-- The point's coordinate on the grid's one axis is the point's number. -/
theorem coord_val (t : Fin grid0.N) : ((grid0.coords t) 0).val = t.val := by
  have h : t.val < 2048 := N_0 ▸ t.isLt
  show t.val / grid0.stride 0 % grid0.bound 0 = t.val
  rw [show grid0.stride 0 = 1 from by decide, show grid0.bound 0 = 2048 from rfl, Nat.div_one, Nat.mod_eq_of_lt h]

/-- Eight times a coordinate below 2048 plus a row below 8, computed in 32-bit words, does not wrap. -/
theorem off_val (n k : Nat) (hn : n < 2048) (hk : k < 8) :
    (Scalar.indexCast (Scalar.addi (Scalar.muli (BitVec.ofNat 32 n) 8#32) (BitVec.ofNat 32 k))).toNat = 8 * n + k := by
  simp only [Scalar.indexCast, Scalar.addi, Scalar.muli, IntOp.addi, IntOp.muli, BitVec.toNat_add, BitVec.toNat_mul, BitVec.toNat_ofNat]
  omega

theorem coord_lt (i : grid0.Coords) : (i 0).val < 2048 := (i 0).isLt

theorem off1_val (i : grid0.Coords) : k0_off1 i 0 = 8 * (i 0).val + 0 := off_val _ 0 (coord_lt i) (by decide)
theorem off3_val (i : grid0.Coords) : k0_off3 i 0 = 8 * (i 0).val + 1 := off_val _ 1 (coord_lt i) (by decide)
theorem off5_val (i : grid0.Coords) : k0_off5 i 0 = 8 * (i 0).val + 2 := off_val _ 2 (coord_lt i) (by decide)
theorem off7_val (i : grid0.Coords) : k0_off7 i 0 = 8 * (i 0).val + 3 := off_val _ 3 (coord_lt i) (by decide)
theorem off9_val (i : grid0.Coords) : k0_off9 i 0 = 8 * (i 0).val + 4 := off_val _ 4 (coord_lt i) (by decide)
theorem off11_val (i : grid0.Coords) : k0_off11 i 0 = 8 * (i 0).val + 5 := off_val _ 5 (coord_lt i) (by decide)
theorem off13_val (i : grid0.Coords) : k0_off13 i 0 = 8 * (i 0).val + 6 := off_val _ 6 (coord_lt i) (by decide)
theorem off15_val (i : grid0.Coords) : k0_off15 i 0 = 8 * (i 0).val + 7 := off_val _ 7 (coord_lt i) (by decide)

/-- The output window's block index at a point: the point's coordinate, and zero. -/
theorem transform_val (i : grid0.Coords) : cc0_transform_1 i 0 = (i 0).val ∧ cc0_transform_1 i 1 = 0 := by
  have h := coord_lt i
  refine ⟨?_, rfl⟩
  show (BitVec.ofNat 32 (i 0).val).toNat = (i 0).val
  rw [BitVec.toNat_ofNat]; omega

/-! ## The words a point reads -/

/-- The eight words a point reads from the token table are the table's words at positions 8·(point) + row. -/
theorem wordOf_tbl (c : Dev nD) (i : grid0.Coords) (j : Fin 8) :
    wordOf c (tbl m 0) i j = (tbl m 0 : S16384.Idx → BitVec 32) (ix1 ⟨8 * (i 0).val + j.val, by have := coord_lt i; have := j.isLt; omega⟩) := by
  have key : ∀ (off : Fin 1 → Nat) (h : ∀ a, off a + S1.size a ≤ S16384.size a) (k : Nat) (hk : 8 * (i 0).val + k < 16384), off 0 = 8 * (i 0).val + k →
      wordAt c (tbl m 0) off h = (tbl m 0 : S16384.Idx → BitVec 32) (ix1 ⟨8 * (i 0).val + k, hk⟩) := fun off h k hk e =>
    (wordAt_var c (tbl m 0) off h).trans (congrArg (tbl m 0 : S16384.Idx → BitVec 32) (congrArg ix1 (Fin.ext e)))
  match j with
  | ⟨0, _⟩ => exact key _ _ 0 _ (off1_val i)
  | ⟨1, _⟩ => exact key _ _ 1 _ (off3_val i)
  | ⟨2, _⟩ => exact key _ _ 2 _ (off5_val i)
  | ⟨3, _⟩ => exact key _ _ 3 _ (off7_val i)
  | ⟨4, _⟩ => exact key _ _ 4 _ (off9_val i)
  | ⟨5, _⟩ => exact key _ _ 5 _ (off11_val i)
  | ⟨6, _⟩ => exact key _ _ 6 _ (off13_val i)
  | ⟨7, _⟩ => exact key _ _ 7 _ (off15_val i)

/-! ## The result array as one function -/

/-- The region's result array as one function: row n is row (table word n) of the embedding table. -/
def rows (c : Dev nD) : Buf (Elt F) ((c : Thread nD τ).loc main_v2) :=
  fun i : S16384x1024.Idx => (V m c main_arg1 : S50257x1024.Idx → F .f32)
    (ix2 (⟨((tbl m 0 : S16384.Idx → BitVec 32) (ix1 (⟨(i 0).val, idx2_lt0 i⟩ : Fin 16384))).toNat, tbl_lt m _⟩ : Fin 50257) (⟨(i 1).val, idx2_lt1 i⟩ : Fin 1024))

/-- It read at a position whose two coordinates are named. -/
theorem rows_apply (c : Dev nD) (k : S16384x1024.Idx) (n : Fin 16384) (d : Fin 1024) (h0 : (k 0).val = n.val) (h1 : (k 1).val = d.val) :
    (rows m c : S16384x1024.Idx → F .f32) k
      = (V m c main_arg1 : S50257x1024.Idx → F .f32) (ix2 (⟨((tbl m 0 : S16384.Idx → BitVec 32) (ix1 n)).toNat, tbl_lt m _⟩ : Fin 50257) d) := by
  obtain rfl : (⟨(k 0).val, idx2_lt0 k⟩ : Fin 16384) = n := Fin.ext h0
  obtain rfl : (⟨(k 1).val, idx2_lt1 k⟩ : Fin 1024) = d := Fin.ext h1
  rfl

/-- What the output block holds after the body at point t, read at row j, column d: entry d of the embedding table's row
    named by the table word at position 8t + j. -/
theorem outsAt_apply (hH : Hyps m) (c : Dev nD) (t : Fin (cfgM m).N) (j : Fin 8) (d : Fin 1024) (n : Fin 16384) (hn : n.val = 8 * t.val + j.val) :
    outsAt m hH c t (ix2 j d)
      = (V m c main_arg1 : S50257x1024.Idx → F .f32) (ix2 (⟨((tbl m 0 : S16384.Idx → BitVec 32) (ix1 n)).toNat, tbl_lt m _⟩ : Fin 50257) d) := by
  have e := wordOf_tbl m c (grid0.coords t) j
  have en : (⟨8 * ((grid0.coords t) 0).val + j.val, by have := coord_lt (grid0.coords t); have := j.isLt; omega⟩ : Fin 16384) = n :=
    Fin.ext (by show 8 * ((grid0.coords t) 0).val + j.val = n.val; rw [hn, coord_val t])
  rw [en] at e
  have hb : (wordOf c (tbl m 0) (grid0.coords t) j).toNat < 50257 := lt_of_eq_of_lt (congrArg BitVec.toNat e) (tbl_lt m _)
  unfold outsAt
  refine (outOf_apply c (grid0.coords t) (ms m t) (hs m t) (tbl m 0) (V m c main_arg1) _ _ _ _ _ _ _ _ j d hb).trans ?_
  exact congrArg (fun r : Fin 50257 => (V m c main_arg1 : S50257x1024.Idx → F .f32) (ix2 r d)) (Fin.ext (congrArg BitVec.toNat e))

/-! ## From blocks to the array -/

/-- The output window's block index at point t: (t, 0). -/
theorem index_val (t : Fin (cfgM m).N) : ((cfgM m).win 0).index t (0 : Fin 2) = t.val ∧ ((cfgM m).win 0).index t (1 : Fin 2) = 0 := by
  have h := transform_val (grid0.coords t)
  rw [coord_val t] at h
  exact h

/-- The output window is written back at every point: its block index moves at every step. -/
theorem flush_all (t : Fin (cfgM m).N) : ((cfgM m).win 0).flush t = true := by
  have ht : t.val < 2048 := N_0 ▸ t.isLt
  rw [Pipeline.Window.flush_eq_flushOf]
  show (true && (decide (t.val + 1 = grid0.N) || decide (∃ h : t.val + 1 < grid0.N, cc0_transform_1 (grid0.coords ⟨t.val + 1, h⟩) ≠ cc0_transform_1 (grid0.coords t)))) = true
  rw [Bool.true_and, Bool.or_eq_true, decide_eq_true_eq, decide_eq_true_eq]
  by_cases hl : t.val + 1 = grid0.N
  · exact Or.inl hl
  · have hlt : t.val + 1 < grid0.N := by rw [N_0] at hl ⊢; omega
    refine Or.inr ⟨hlt, fun e => ?_⟩
    have e0 := congrFun e 0
    rw [(transform_val _).1, (transform_val _).1, coord_val, coord_val] at e0
    exact absurd e0 (by show t.val + 1 ≠ t.val; omega)

theorem flushed_eq (c : Dev nD) (t : Fin (cfgM m).N) :
    (dats m (hyps m) 0 c).flushed 0 t = (((cfgM m).win 0).blk t).view.read (Elt F) (rows m c) := by
  show ((cfgM m).win 0).cut (grid0.coords t) ((dats m (hyps m) 0 c).after 0 t) = _
  rw [after0]
  funext y
  have hy0 : (y (0 : Fin 2)).val < 8 := (y (0 : Fin 2)).isLt
  have hy1 : (y (1 : Fin 2)).val < 1024 := (y (1 : Fin 2)).isLt
  have ht : t.val < 2048 := N_0 ▸ t.isLt
  have hl : ((cfgM m).win 0).cut (grid0.coords t) (outsAt m (hyps m) c t) y
      = outsAt m (hyps m) c t (ix2 (⟨(y (0 : Fin 2)).val, hy0⟩ : Fin 8) (⟨(y (1 : Fin 2)).val, hy1⟩ : Fin 1024)) := by
    show outsAt m (hyps m) c t _ = _
    refine congrArg (outsAt m (hyps m) c t) ?_
    funext a; fin_cases a <;> rfl
  rw [hl, outsAt_apply m (hyps m) c t ⟨(y (0 : Fin 2)).val, hy0⟩ ⟨(y (1 : Fin 2)).val, hy1⟩ ⟨8 * t.val + (y (0 : Fin 2)).val, by omega⟩ rfl]
  refine (rows_apply m c ((((cfgM m).win 0).blk t).view.emb y) ⟨8 * t.val + (y (0 : Fin 2)).val, by omega⟩ ⟨(y (1 : Fin 2)).val, hy1⟩ ?_ ?_).symm
  · show ((cfgM m).win 0).index t (0 : Fin 2) * 8 + 1 * (y (0 : Fin 2)).val = 8 * t.val + (y (0 : Fin 2)).val
    rw [(index_val m t).1]; omega
  · show ((cfgM m).win 0).index t (1 : Fin 2) * 1024 + 1 * (y (1 : Fin 2)).val = (y (1 : Fin 2)).val
    rw [(index_val m t).2]; omega

/-- Every position of the result array lies in the block of the point that is its row number divided by eight; so the
    array ends holding `rows`. -/
theorem final (c : Dev nD) : (dats m (hyps m) 0 c).arrAt 0 (cfgM m).N = rows m c :=
  (dats m (hyps m) 0 c).arrAt_eq_of_cover 0 (rows m c) (fun t _ => flushed_eq m c t) fun i => by
    have hi0 : (i (0 : Fin 2)).val < 16384 := (i (0 : Fin 2)).isLt
    have hi1 : (i (1 : Fin 2)).val < 1024 := (i (1 : Fin 2)).isLt
    have hN : (cfgM m).N = 2048 := N_0
    let t0 : Fin (cfgM m).N := ⟨(i (0 : Fin 2)).val / 8, by rw [hN]; omega⟩
    refine ⟨t0, flush_all m t0, ?_⟩
    refine (Finset.ext_iff.mp (View.set_slice_whole main_v2 (((cfgM m).win 0).rect t0)) i).mpr ?_
    refine Rect.mem_set_unit.mpr fun a => ?_
    match a with
    | ⟨0, _⟩ =>
      show ((cfgM m).win 0).index t0 (0 : Fin 2) * 8 ≤ (i (0 : Fin 2)).val ∧ (i (0 : Fin 2)).val < ((cfgM m).win 0).index t0 (0 : Fin 2) * 8 + 8
      rw [(index_val m t0).1]; show (i (0 : Fin 2)).val / 8 * 8 ≤ _ ∧ _ < (i (0 : Fin 2)).val / 8 * 8 + 8; omega
    | ⟨1, _⟩ =>
      show ((cfgM m).win 0).index t0 (1 : Fin 2) * 1024 ≤ (i (1 : Fin 2)).val ∧ (i (1 : Fin 2)).val < ((cfgM m).win 0).index t0 (1 : Fin 2) * 1024 + 1024
      rw [(index_val m t0).2]; omega

/-! ## The reshape after the region, and the run -/

/-- The result array reshaped to (4, 4096, 1024), read at (b, s, d): entry d of the embedding table's row named by the
    clipped token word at (b, s). -/
theorem reshape_rows (h : S16384x1024.ShapeCasts S4x4096x1024) (j : S4x4096x1024.Idx) :
    shapeCast S4x4096x1024 (rows m (0 : Dev nD) : S16384x1024.Idx → F .f32) h j
      = Cert.Spec.gatheredClip (m (((0 : Dev nD).tc : Thread nD τ).loc main_arg0)) (m (((0 : Dev nD).tc : Thread nD τ).loc main_arg1)) j := by
  have h0 : (j (0 : Fin 3)).val < 4 := (j (0 : Fin 3)).isLt
  have h1 : (j (1 : Fin 3)).val < 4096 := (j (1 : Fin 3)).isLt
  have h2 : (j (2 : Fin 3)).val < 1024 := (j (2 : Fin 3)).isLt
  let n : Fin 16384 := ⟨(j (0 : Fin 3)).val * 4096 + (j (1 : Fin 3)).val, by omega⟩
  let d : Fin 1024 := ⟨(j (2 : Fin 3)).val, h2⟩
  rw [shapeCast_apply _ h j (ix2 n d) (by
    rw [Shape.rowMajor_val_two, Shape.rowMajor_val_three]
    show ((j (0 : Fin 3)).val * 4096 + (j (1 : Fin 3)).val) * 1024 + (j (2 : Fin 3)).val = ((j (0 : Fin 3)).val * 4096 + (j (1 : Fin 3)).val) * 1024 + (j (2 : Fin 3)).val
    rfl)]
  rw [rows_apply m 0 (ix2 n d) n d rfl rfl, V_main_arg1 m 0]
  unfold Cert.Spec.gatheredClip
  refine congrArg (m (((0 : Dev nD).tc : Thread nD τ).loc main_arg1) : S50257x1024.Idx → F .f32) ?_
  refine congrArg (fun r : Fin 50257 => ix2 r d) (Fin.ext ?_)
  show ((tbl m 0 : S16384.Idx → BitVec 32) (ix1 n)).toNat = (Cert.Spec.clipWord (Cert.Spec.wordAt _ (Cert.Spec.coord0 j) (Cert.Spec.coord1 j))).toNat
  rw [tbl_apply m n]
  unfold Cert.Spec.wordAt
  have e0 : (⟨n.val / 4096, by omega⟩ : Fin 4) = Cert.Spec.coord0 j := Fin.ext (by show ((j (0 : Fin 3)).val * 4096 + (j (1 : Fin 3)).val) / 4096 = (j (0 : Fin 3)).val; omega)
  have e1 : (⟨n.val % 4096, by omega⟩ : Fin 4096) = Cert.Spec.coord1 j := Fin.ext (by show ((j (0 : Fin 3)).val * 4096 + (j (1 : Fin 3)).val) % 4096 = (j (1 : Fin 3)).val; omega)
  rw [e0, e1]

theorem v3_mem : main_v3 ∈ Pipeline.restRefs sig spec0 := Pipeline.mem_restRefs_of main_v3 (by decide) (by decide)

/-- After the reshape that follows the region the result buffer holds the lookup through the clipped token words. -/
theorem tail_v3 (c : Dev nD) :
    Pipeline.afterTail pcfgs (fun _ => adm m) (dats m (hyps m)) 0 (V0 m) [hostOps1] c main_v3
      = Cert.Spec.gatheredClip (m ((c.tc : Thread nD τ).loc main_arg0)) (m ((c.tc : Thread nD τ).loc main_arg1)) := by
  obtain rfl : c = 0 := Subsingleton.elim _ _
  unfold Pipeline.afterTail
  show StableHlo.after hostOps1 _ (Proc.devRef .tc main_v3) = _
  after_results
  rw [show Pipeline.withArrays (Pipeline.pin pcfgs (fun _ => adm m) 0).spec (0 : Dev nD) (V0 m 0)
        (fun w => (dats m (hyps m) 0 0).arrAt w (Pipeline.pin pcfgs (fun _ => adm m) 0).N) (Proc.devRef .tc main_v2) = rows m 0
      from (Pipeline.withArrays_arr spec0 winFacts0.arr_inj 0 _ _ 0).trans (final m 0)]
  funext j
  exact reshape_rows m _ j

/-- The program's run, read: its result is the lookup through the clipped token words; the arguments are unchanged. -/
theorem run : θ_run defs (onTc (τ := τ) (main (F := F))) ⟨m, fun _ => 0, ρ⟩ (fun r => ∀ c : Dev nD,
      r.2.mem ((c.tc : Thread nD τ).loc main_v3) = Cert.Spec.gatheredClip (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h c).2 main_v3 v3_mem).trans (tail_v3 m c),
       ((h c).2 main_arg0 arg0_mem).trans ((afterTail_of_ne m (hyps m) c main_arg0 (by decide) (by decide)).trans (V_main_arg0 m c)),
       ((h c).2 main_arg1 arg1_mem).trans ((afterTail_of_ne m (hyps m) c main_arg1 (by decide) (by decide)).trans (V_main_arg1 m c))⟩)
    (run_main m ρ (hyps m))

end Cert.KernelIdeal.Hand

end
-- ==== Proof.lean ====
/-
  The certificate of an embedding lookup. The kernel flattens the token ids, clips each into the table's rows, and for
  every group of eight tokens copies the eight rows they name from the embedding table into one block of its result,
  by copies of its own that it starts together and waits for before the block is written back; the reference is the
  row gather `take`, which moves negative ids up by the table's length, clamps the gather's start index and fills
  the rows of ids outside the table with not-a-number. Under the precondition — the table's entries finite and every
  token id a row number, 0 ≤ id < 50257 — neither the kernel's clip nor the reference's move, clamp and fill does
  anything, and both results are the same array: entry (b, s, d) is entry d of row id(b, s) of the table. No arithmetic is
  done on the table's entries, so the finiteness of the floats is never used.
  The three frames: the kernel's two (word level and idealized: one text, the frame proved once for any float
  instance) are the region's launch over the body's run at a symbolic grid point; the reference's is its run with the
  result dropped. The ideal pass rewrote nothing, so `preserves` is trivial.
-/
import proofs.«419301_j71760313581990_2_alg».proof.Defs
import proofs.«419301_j71760313581990_2_alg».proof.Proof.Gen.Kernel
import proofs.«419301_j71760313581990_2_alg».proof.Proof.Gen.KernelIdeal
import proofs.«419301_j71760313581990_2_alg».proof.Proof.Gen.ReferenceIdeal
import proofs.«419301_j71760313581990_2_alg».proof.Proof.Gen.Pre_finite_inputs
import proofs.«419301_j71760313581990_2_alg».proof.Proof.Spec
import proofs.«419301_j71760313581990_2_alg».proof.Proof.PreIds
import proofs.«419301_j71760313581990_2_alg».proof.Proof.RefRun
import proofs.«419301_j71760313581990_2_alg».proof.Proof.RefValue
import proofs.«419301_j71760313581990_2_alg».proof.Proof.BFrame
import proofs.«419301_j71760313581990_2_alg».proof.Proof.KFrame
import proofs.«419301_j71760313581990_2_alg».proof.Proof.KValue
import Idealize.ShloMosaic.Adequacy
import Idealize.ShloMosaic.Init

noncomputable section

namespace Cert.Proof

open Idealize.ShloMosaic Idealize.ShloMosaic.TcCoe Idealize.SL.Sem

/-- The word-level kernel runs to the end, faults nowhere and leaves its arguments unchanged. -/
theorem frame_kernel : Cert.frame_Kernel := fun m ρ _ => Cert.Kernel.Hand.frame (F := Bits) m ρ

/-- The same of the idealized kernel. -/
theorem frame_kernelIdeal : Cert.frame_KernelIdeal := fun m ρ _ => Cert.KernelIdeal.Hand.frame (F := Ideal) m ρ

/-- The reference's frame is its run with the result dropped. -/
theorem frame_reference : Cert.frame_ReferenceIdeal := fun m ρ _ =>
  (θ_run Cert.ReferenceIdeal.defs _ _).mono (fun _ h c => (h c).2) (Cert.ReferenceIdeal.RefRun.run (F := Ideal) m ρ)

/-- The ideal pass rewrote no operation. -/
theorem preserves : Cert.preserves_Kernel_KernelIdeal := trivial

/-- Both idealized programs end with the lookup of the token ids in the table: the kernel's clipped lookup and the
    reference's guarded gather are that array once every id is a row number, which the precondition says. -/
theorem algebraic : Cert.algebraic_KernelIdeal_ReferenceIdeal := by
  intro m ρ m' ρ' hpre hagree
  have hr : ∀ c : Dev Cert.KernelIdeal.nD,
      Cert.Spec.InRange (m ((c.tc : Thread Cert.KernelIdeal.nD Cert.KernelIdeal.τ).loc Cert.KernelIdeal.main_arg0)) :=
    fun c => Cert.PreIds.inRange _ _ (hpre c)
  refine ⟨fun c => Cert.Spec.gathered (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (Cert.Spec.gatheredClip_eq _ _ (hr c)), (h c).2⟩)
      (Cert.KernelIdeal.Hand.run (F := Ideal) m ρ)
  · refine (θ_run Cert.ReferenceIdeal.defs _ _).mono (fun _ h c => ⟨(h c).1.trans ?_, (h c).2⟩)
      (Cert.ReferenceIdeal.RefRun.run (F := Ideal) m' ρ')
    rw [(hagree c).1, (hagree c).2]
    exact Cert.ReferenceIdeal.RefValue.refTerm_eq _ _ (hr c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
